-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128 .f32) (main_arg7 : FVec F S128 .f32) (main_arg8 : FVec F S128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S5000x128 : Shape := ⟨2, ![5000, 128]⟩

abbrev nBuf : Space → Nat
  | .hbm => 78
  | .vmem => 40
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S1x128, .f32⟩
  | .hbm, ⟨28, _⟩ => ⟨S50000x128, .f32⟩
  | .hbm, ⟨29, _⟩ => ⟨S1x128, .f32⟩
  | .hbm, ⟨30, _⟩ => ⟨S1x128, .f32⟩
  | .hbm, ⟨31, _⟩ => ⟨S_, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S_, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S1x128, .f32⟩
  | .hbm, ⟨62, _⟩ => ⟨S1x128, .f32⟩
  | .hbm, ⟨63, _⟩ => ⟨S_, .f32⟩
  | .hbm, ⟨64, _⟩ => ⟨S1x128, .f32⟩
  | .hbm, ⟨65, _⟩ => ⟨S1x128, .f32⟩
  | .hbm, ⟨66, _⟩ => ⟨S_, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S_, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16_0 : Ref sig .tc := ⟨.hbm, 29, rfl⟩
abbrev main_v16_1 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41_0 : Ref sig .tc := ⟨.hbm, 61, rfl⟩
abbrev main_v41_1 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg4_0 : Ref sig .tc := ⟨.vmem, 37, rfl⟩
abbrev cc5_stg5_0 : Ref sig .tc := ⟨.vmem, 38, rfl⟩
abbrev cc5_stg5_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem4_0 : DmaSem sig := 37
abbrev cc5_sem5_0 : DmaSem sig := 38
abbrev cc5_sem5_1 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v25) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v28) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v28) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg4) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v39) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v40) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v40) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41_0) S1x128.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v41_1) S1x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v40) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v43) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v50) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v51) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v52) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v53) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 116
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S50000x128, .f32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S_, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S1x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S1x128, .f32⟩
  | .hbm, ⟨57, _⟩ => ⟨S50000x128, .f32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x128, .f32⟩
  | .hbm, ⟨74, _⟩ => ⟨S_, .f32⟩
  | .hbm, ⟨75, _⟩ => ⟨S50000x128, .f32⟩
  | .hbm, ⟨76, _⟩ => ⟨S800000x1, .i32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S1x128, .f32⟩
  | .hbm, ⟨81, _⟩ => ⟨S50000x128, .f32⟩
  | .hbm, ⟨82, _⟩ => ⟨S50000x128, .f32⟩
  | .hbm, ⟨83, _⟩ => ⟨S_, .f32⟩
  | .hbm, ⟨84, _⟩ => ⟨S50000x128, .f32⟩
  | .hbm, ⟨85, _⟩ => ⟨S50000x128, .f32⟩
  | .hbm, ⟨86, _⟩ => ⟨S_, .f32⟩
  | .hbm, ⟨87, _⟩ => ⟨S128, .f32⟩
  | .hbm, ⟨88, _⟩ => ⟨S_, .f32⟩
  | .hbm, ⟨89, _⟩ => ⟨S128, .f32⟩
  | .hbm, ⟨90, _⟩ => ⟨S128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S128, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S1x128, .f32⟩
  | .hbm, ⟨101, _⟩ => ⟨S50000x128, .f32⟩
  | .hbm, ⟨102, _⟩ => ⟨S50000x128, .f32⟩
  | .hbm, ⟨103, _⟩ => ⟨S_, .f32⟩
  | .hbm, ⟨104, _⟩ => ⟨S128, .f32⟩
  | .hbm, ⟨105, _⟩ => ⟨S128, .f32⟩
  | .hbm, ⟨106, _⟩ => ⟨S128, .f32⟩
  | .hbm, ⟨107, _⟩ => ⟨S1x128, .f32⟩
  | .hbm, ⟨108, _⟩ => ⟨S50000x128, .f32⟩
  | .hbm, ⟨109, _⟩ => ⟨S50000x128, .f32⟩
  | .hbm, ⟨110, _⟩ => ⟨S1x128, .f32⟩
  | .hbm, ⟨111, _⟩ => ⟨S50000x128, .f32⟩
  | .hbm, ⟨112, _⟩ => ⟨S50000x128, .f32⟩
  | .hbm, ⟨113, _⟩ => ⟨S1x128, .f32⟩
  | .hbm, ⟨114, _⟩ => ⟨S50000x128, .f32⟩
  | .hbm, ⟨115, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_6 : Ref sig .tc := ⟨.hbm, 65, rfl⟩
abbrev main_v45 : Ref sig .tc := ⟨.hbm, 66, rfl⟩
abbrev main_v46 : Ref sig .tc := ⟨.hbm, 67, rfl⟩
abbrev main_c_7 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_8 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call1_cst : Ref sig .tc := ⟨.hbm, 83, rfl⟩
abbrev main_call1_v0 : Ref sig .tc := ⟨.hbm, 84, rfl⟩
abbrev main_v60 : Ref sig .tc := ⟨.hbm, 85, rfl⟩
abbrev main_cst_9 : Ref sig .tc := ⟨.hbm, 86, rfl⟩
abbrev main_v61 : Ref sig .tc := ⟨.hbm, 87, rfl⟩
abbrev main_cst_10 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_11 : Ref sig .tc := ⟨.hbm, 95, rfl⟩
abbrev main_v68 : Ref sig .tc := ⟨.hbm, 96, rfl⟩
abbrev main_cst_12 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_13 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  One graph-isomorphism layer followed by a training-mode batch normalisation, as a function of its arrays over the
  extended reals; the two programs differ only in how the per-column variance is written.

  Notation: N = 50000 rows (nodes), 128 columns (features). For an input `x` and its neighbourhood sum `A x`,
    z = x + A x,     h[n, j] = max (Σ_k z[n, k] · W[k, j] + b[j]) 0,
    μ[j] = (Σ_n h[n, j]) / N,
    the variance either   (Σ_n h[n, j]²) / N − μ[j] · μ[j]      (`varK`: second moment minus squared mean)
                 or       (Σ_n (h[n, j] − μ[j])²) / N           (`varR`: mean squared deviation),
    out[n, j] = (h[n, j] − μ[j]) · (var[j] + ε)^(−1/2) · γ[j] + β[j].
  The two variances agree when every h[n, j] is a real number: expand the square and use Σ_n h[n, j] = N · μ[j].
-/
import Idealize.ShloMosaic.PureOps.Ideal
import Idealize.ShloMosaic.Lib.ValueIdx

noncomputable section

open scoped BigOperators

namespace Cert.GinSpec

open Idealize.ShloMosaic Idealize.ShloMosaic.ValueIdx

/-- Rows by columns, and the square weight matrix. -/
abbrev SN : Shape := ⟨2, ![50000, 128]⟩
abbrev SW : Shape := ⟨2, ![128, 128]⟩

/-- The number of rows as both programs spell it (the f32 word of 50000.0). -/
def nF : EReal := Ideal.ofBits .f32 0x47435000#32
/-- The variance floor as both programs spell it (the f32 word nearest 1e-5). -/
def epsF : EReal := Ideal.ofBits .f32 0x3727C5AC#32

/-- The hidden activation at row `n`, column `j`: the rectified affine image of row `n` of `z`. -/
def hidden (z : SN.Idx → EReal) (W : SW.Idx → EReal) (b : Fin 128 → EReal) (n : Fin 50000) (j : Fin 128) : EReal :=
  max ((∑ k : Fin 128, z (ix2 n k) * W (ix2 k j)) + b j) 0

/-- Column sums over all rows. -/
def colSum (h : Fin 50000 → Fin 128 → EReal) (j : Fin 128) : EReal := ∑ n : Fin 50000, h n j

/-- Column means. -/
def mean (h : Fin 50000 → Fin 128 → EReal) (j : Fin 128) : EReal := Ideal.div (colSum h j) nF

/-- Column variances as second moment minus squared mean. -/
def varK (h : Fin 50000 → Fin 128 → EReal) (j : Fin 128) : EReal :=
  Ideal.div (colSum (fun n j => h n j * h n j) j) nF - mean h j * mean h j

/-- Column variances as the mean squared deviation from the mean. -/
def varR (h : Fin 50000 → Fin 128 → EReal) (j : Fin 128) : EReal :=
  Ideal.div (colSum (fun n j => (h n j - mean h j) * (h n j - mean h j)) j) nF

/-- Centre by `μ`, scale by `s` and `γ`, shift by `β`, column by column. -/
def normed (h : Fin 50000 → Fin 128 → EReal) (μ s γ β : Fin 128 → EReal) : SN.Idx → EReal :=
  fun i => (h (i 0) (i 1) - μ (i 1)) * s (i 1) * γ (i 1) + β (i 1)

theorem normed_ix2 (h : Fin 50000 → Fin 128 → EReal) (μ s γ β : Fin 128 → EReal) (n : Fin 50000) (j : Fin 128) :
    normed h μ s γ β (ix2 n j) = (h n j - μ j) * s j * γ j + β j := rfl

/-- The inverse standard deviation from a variance. -/
def invStd (v : Fin 128 → EReal) (j : Fin 128) : EReal := Ideal.rsqrt (v j + epsF)

/-- One layer with the variance as second moment minus squared mean; `A` is the neighbourhood sum. -/
def layerK (A : (SN.Idx → EReal) → SN.Idx → EReal) (x : SN.Idx → EReal) (W : SW.Idx → EReal) (b γ β : Fin 128 → EReal) :
    SN.Idx → EReal :=
  normed (hidden (fun i => x i + A x i) W b) (mean (hidden (fun i => x i + A x i) W b))
    (invStd (varK (hidden (fun i => x i + A x i) W b))) γ β

/-- One layer with the variance as the mean squared deviation. -/
def layerR (A : (SN.Idx → EReal) → SN.Idx → EReal) (x : SN.Idx → EReal) (W : SW.Idx → EReal) (b γ β : Fin 128 → EReal) :
    SN.Idx → EReal :=
  normed (hidden (fun i => x i + A x i) W b) (mean (hidden (fun i => x i + A x i) W b))
    (invStd (varR (hidden (fun i => x i + A x i) W b))) γ β

/-- Every entry is a real number (neither infinity). -/
def IsReal {ι : Type} (v : ι → EReal) : Prop := ∀ i, ∃ r : ℝ, v i = (r : EReal)

end Cert.GinSpec

end
-- ==== Proof.RegionMlp.lean ====
/-
  The two hidden-layer regions of the idealized kernel program, read as whole arrays.

  Each of the two regions walks the 50000 rows in ten blocks of 5000. At block `t` it forms, for the rows
  `5000 t … 5000 t + 4999`, the sum `z = x + a` of the node features and the neighbourhood sums, multiplies the
  block by the whole 128 × 128 weight matrix, adds the bias row and rectifies:
      out[n, j] = max (Σ_k (x[n, k] + a[n, k]) · W[k, j] + b[j]) 0.
  Row `n` of the output depends on row `n` of the two row-blocked inputs only, and the weight matrix and the bias are
  read whole at every block, so the ten blocks written back are the ten row ranges of ONE function of the arrays the
  region finds on entry: `GinSpec.hidden` of them. Since the row ranges `[5000 t, 5000 t + 5000)` cover `[0, 50000)`
  (row `r` lies in block `r / 5000`), the output array ends holding that function everywhere.

  Over the extended reals the change of float format before the product is the identity, the product into a zero
  accumulator is the plain sum of products over the contracted axis, and the two casts of a block to its own shape do
  nothing.
-/
import proofs.«101512_j37709812859563_1_alg».proof.Proof.KernelIdealFrame
import proofs.«101512_j37709812859563_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionMlp

open Idealize.ShloMosaic Idealize.ShloMosaic.TcCoe Idealize.SL.Sem Idealize.ShloMosaic.ValueIdx Cert.KernelIdeal Cert.KernelIdeal.Gen Cert.KernelIdeal.GenP Cert.GinSpec

/-! ## A 5000 × 128 block times the 128 × 128 matrix, entry by entry

The product contracts the block's columns against the matrix's rows: at output entry `(p, q)` and contraction index
`k` the left factor is read at `(p, k)` and the right factor at `(k, q)`. The four lemmas below say that, one axis of
one operand each; both regions use the same dimension numbers. -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into the zero accumulator at `(p, q)`: the sum over `k` of `l[p, k] · r[k, q]`. -/
theorem matmul_entry (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## What one block's body stores, entry by entry -/

/-- The first region's stored block at `(p, q)`: the rectified affine image of row `p` of the two input blocks added. -/
theorem stored0_entry (x a : Vec Ideal S5000x128 .f32) (w : Vec Ideal S128x128 .f32) (b : Vec Ideal S1x128 .f32) (p : Fin 5000) (q : Fin 128) :
    k0_pay1 x a w b (ix2 p q) = max ((∑ k : Fin 128, (x (ix2 p k) + a (ix2 p k)) * w (ix2 k q)) + b (ix2 (0 : Fin 1) q)) 0 := by
  unfold k0_pay1
  rw [shapeCast_self, shapeCast_self]
  refine (maximumf_apply _ _ (ix2 p q)).trans ?_
  refine congrArg₂ max ?_ Ideal.ofBits_zero_f32
  refine (addf_apply _ _ (ix2 p q)).trans ?_
  refine congrArg₂ (· + ·) ?_ (broadcastTo_1b_ab_apply b broadcasts_S1x128_S5000x128 p q)
  exact matmul_entry _ _ p q

/-- The second region's stored block at `(p, q)`: the same function of its own four blocks. -/
theorem stored3_entry (x a : Vec Ideal S5000x128 .f32) (w : Vec Ideal S128x128 .f32) (b : Vec Ideal S1x128 .f32) (p : Fin 5000) (q : Fin 128) :
    k3_pay1 x a w b (ix2 p q) = max ((∑ k : Fin 128, (x (ix2 p k) + a (ix2 p k)) * w (ix2 k q)) + b (ix2 (0 : Fin 1) q)) 0 := by
  unfold k3_pay1
  rw [shapeCast_self, shapeCast_self, shapeCast_self]
  refine (maximumf_apply _ _ (ix2 p q)).trans ?_
  refine congrArg₂ max ?_ Ideal.ofBits_zero_f32
  refine (addf_apply _ _ (ix2 p q)).trans ?_
  refine congrArg₂ (· + ·) ?_ (broadcastTo_1b_ab_apply b broadcasts_S1x128_S5000x128 p q)
  exact matmul_entry _ _ p q

-- the contents of the core's buffers when a region is entered; every statement below is at this parameter
variable (V : (c : Dev nD) → (b : Ref sig .tc) → Buf (Elt Ideal) ((c : Thread nD τ).loc b))

/-- Every block read below starts at offset zero inside its staging buffer. -/
theorem hz : (![0, 0] : Fin 2 → Nat) = fun _ => 0 := funext fun a => by fin_cases a <;> rfl

/-! # The first hidden-layer region -/

/-- The arrays the region reads, as it finds them, each at its literal type: the node features, the neighbourhood
    sums, the weight matrix and the bias row. -/
abbrev feat0 (c : Dev nD) : S50000x128.Idx → EReal := V c main_arg0
abbrev nbr0 (c : Dev nD) : S50000x128.Idx → EReal := V c main_v13
abbrev wt0 (c : Dev nD) : S128x128.Idx → EReal := V c main_arg2
abbrev bias0 (c : Dev nD) : S1x128.Idx → EReal := V c main_v14

/-- The hidden activation of the whole array, as one function of those four arrays. -/
abbrev hid0 (c : Dev nD) : S50000x128.Idx → EReal := fun i =>
  GinSpec.hidden (fun i' => feat0 V c i' + nbr0 V c i') (wt0 V c) (fun j => bias0 V c (ix2 0 j)) (i 0) (i 1)

/-- Which block each window holds at point `t`: the three row-blocked windows hold row block `t`, the weight matrix
    and the bias row their one block. Decided over the ten points. -/
theorem blocks0 : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = 0 ∧ win0_2.index t (1 : Fin 2) = 0
  ∧ win0_3.index t (0 : Fin 2) = 0 ∧ win0_3.index t (1 : Fin 2) = 0
  ∧ win0_4.index t (0 : Fin 2) = t.val ∧ win0_4.index t (1 : Fin 2) = 0 :=
  (by decide +kernel : ∀ t : Fin grid0.N, _)

/-- Entry `(p, k)` of the feature block at point `t` is entry `(5000 t + p, k)` of the feature array. -/
theorem featBlk0 (c : Dev nD) (t : Fin cfg0.N) (p : Fin 5000) (k : Fin 128) (n : Fin 50000) (hn : n.val = t.val * 5000 + p.val) :
    (iblk0 V c 0 t : Vec Ideal S5000x128 .f32) (ix2 p k) = feat0 V c (ix2 n k) := by
  obtain ⟨e0, e1, -⟩ := blocks0 t
  unfold iblk0
  rw [View.read_apply]
  show V c main_arg0 _ = V c main_arg0 _
  congr 1
  funext a; apply Fin.ext
  match a with
  | ⟨0, _⟩ => show win0_0.index t 0 * 5000 + 1 * p.val = n.val; rw [e0, hn]; omega
  | ⟨1, _⟩ => show win0_0.index t 1 * 128 + 1 * k.val = k.val; rw [e1]; omega

/-- Entry `(p, k)` of the neighbourhood-sum block at point `t` is entry `(5000 t + p, k)` of that array. -/
theorem nbrBlk0 (c : Dev nD) (t : Fin cfg0.N) (p : Fin 5000) (k : Fin 128) (n : Fin 50000) (hn : n.val = t.val * 5000 + p.val) :
    (iblk0 V c 1 t : Vec Ideal S5000x128 .f32) (ix2 p k) = nbr0 V c (ix2 n k) := by
  obtain ⟨-, -, e0, e1, -⟩ := blocks0 t
  unfold iblk0
  rw [View.read_apply]
  show V c main_v13 _ = V c main_v13 _
  congr 1
  funext a; apply Fin.ext
  match a with
  | ⟨0, _⟩ => show win0_1.index t 0 * 5000 + 1 * p.val = n.val; rw [e0, hn]; omega
  | ⟨1, _⟩ => show win0_1.index t 1 * 128 + 1 * k.val = k.val; rw [e1]; omega

/-- The weight window's block is the whole matrix at every point. -/
theorem wtBlk0 (c : Dev nD) (t : Fin cfg0.N) (k q : Fin 128) :
    (iblk0 V c 2 t : Vec Ideal S128x128 .f32) (ix2 k q) = wt0 V c (ix2 k q) := by
  obtain ⟨-, -, -, -, e0, e1, -⟩ := blocks0 t
  unfold iblk0
  rw [View.read_apply]
  show V c main_arg2 _ = V c main_arg2 _
  congr 1
  funext a; apply Fin.ext
  match a with
  | ⟨0, _⟩ => show win0_2.index t 0 * 128 + 1 * k.val = k.val; rw [e0]; omega
  | ⟨1, _⟩ => show win0_2.index t 1 * 128 + 1 * q.val = q.val; rw [e1]; omega

/-- The bias window's block is the whole row at every point. -/
theorem biasBlk0 (c : Dev nD) (t : Fin cfg0.N) (q : Fin 128) :
    (iblk0 V c 3 t : Vec Ideal S1x128 .f32) (ix2 (0 : Fin 1) q) = bias0 V c (ix2 (0 : Fin 1) q) := by
  obtain ⟨-, -, -, -, -, -, e0, e1, -⟩ := blocks0 t
  unfold iblk0
  rw [View.read_apply]
  show V c main_v14 _ = V c main_v14 _
  congr 1
  funext a; apply Fin.ext
  match a with
  | ⟨0, _⟩ => show win0_3.index t 0 * 1 + 1 * 0 = 0; rw [e0]
  | ⟨1, _⟩ => show win0_3.index t 1 * 128 + 1 * q.val = q.val; rw [e1]; omega

/-- What the body stores at point `t`, read at block entry `j`, is the hidden activation at the array entry `i` that
    `j` is: row `5000 t + j₀`, column `j₁`. -/
theorem stored0_eq_hid (c : Dev nD) (t : Fin cfg0.N) (j : S5000x128.Idx) (i : S50000x128.Idx)
    (h0 : (i 0).val = t.val * 5000 + (j 0).val) (h1 : (i 1).val = (j 1).val) :
    k0_pay1 (iblk0 V c 0 t) (iblk0 V c 1 t) (iblk0 V c 2 t) (iblk0 V c 3 t) j = hid0 V c i := by
  obtain ⟨p, q, rfl⟩ : ∃ (p : Fin 5000) (q : Fin 128), j = ix2 p q := ⟨j 0, j 1, eq_ix2 j⟩
  obtain ⟨n, q', rfl⟩ : ∃ (n : Fin 50000) (q' : Fin 128), i = ix2 n q' := ⟨i 0, i 1, eq_ix2 i⟩
  have hn : n.val = t.val * 5000 + p.val := h0
  obtain rfl : q' = q := Fin.ext h1
  refine (stored0_entry (iblk0 V c 0 t) (iblk0 V c 1 t) (iblk0 V c 2 t) (iblk0 V c 3 t) p q').trans ?_
  show _ = max ((∑ k : Fin 128, (feat0 V c (ix2 n k) + nbr0 V c (ix2 n k)) * wt0 V c (ix2 k q')) + bias0 V c (ix2 0 q')) 0
  refine congrArg₂ max (congrArg₂ (· + ·) (Finset.sum_congr rfl fun k _ => ?_) (biasBlk0 V c t q')) rfl
  rw [featBlk0 V c t p k n hn, nbrBlk0 V c t p k n hn, wtBlk0 V c t k q']

/-- What point `t` writes back is block `t` of the hidden activation of the entry arrays. -/
theorem writeback0 (c : Dev nD) (t : Fin cfg0.N) :
    (dat0 (F := Ideal) V c).flushed 4 t = ((cfg0.win 4).blk t).view.read (Elt Ideal) (hid0 V c) := by
  obtain ⟨-, -, -, -, -, -, -, -, e0, e1⟩ := blocks0 t
  show (cfg0.win 4).cut (grid0.coords t) ((dat0 V c).after 4 t) = _
  rw [after0_4]
  unfold out0_4
  rw [View.canon_unit_zero hz]
  simp only [View.ld_unit_zero (S := S5000x128) hz, View.ld_unit_zero (S := S128x128) hz, View.ld_unit_zero (S := S1x128) hz]
  funext j
  show k0_pay1 (iblk0 V c 0 t) (iblk0 V c 1 t) (iblk0 V c 2 t) (iblk0 V c 3 t) j = hid0 V c (((cfg0.win 4).blk t).view.emb j)
  refine stored0_eq_hid V c t j _ ?_ ?_
  · show win0_4.index t 0 * 5000 + 1 * (j 0).val = t.val * 5000 + (j 0).val; rw [e0]; omega
  · show win0_4.index t 1 * 128 + 1 * (j 1).val = (j 1).val; rw [e1]; omega

/-- An entry of the output array lies in point `t`'s block iff each coordinate lies in the block's range on its axis. -/
theorem mem_outBlk0 (t : Fin cfg0.N) (i : S50000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v15).slice (win0_4.rect t)).set ↔ _
  rw [View.set_slice_whole, Rect.mem_set_unit]
  exact Iff.rfl

/-- THE FIRST REGION'S OUTPUT ARRAY after its run: the hidden activation of the arrays the region found. Every point
    writes back, and row `r` lies in the block of point `r / 5000`. -/
theorem mlp0 (c : Dev nD) : (dat0 (F := Ideal) V c).arrAt 4 cfg0.N = hid0 V c :=
  (dat0 V c).arrAt_eq_of_cover 4 (hid0 V c) (fun t _ => writeback0 V c t) fun i => by
    have hi0 : (i 0).val < 50000 := (i 0).isLt
    have hi1 : (i 1).val < 128 := (i 1).isLt
    have hN : cfg0.N = 10 := N_0
    refine ⟨⟨(i 0).val / 5000, by rw [hN]; omega⟩, flush0_4 _, ?_⟩
    obtain ⟨-, -, -, -, -, -, -, -, e0, e1⟩ := blocks0 ⟨(i 0).val / 5000, by rw [hN]; omega⟩
    rw [mem_outBlk0]
    intro a
    match a with
    | ⟨0, _⟩ =>
      show win0_4.index _ (0 : Fin 2) * 5000 ≤ (i 0).val ∧ (i 0).val < win0_4.index _ (0 : Fin 2) * 5000 + 5000
      rw [e0]; show (i 0).val / 5000 * 5000 ≤ (i 0).val ∧ (i 0).val < (i 0).val / 5000 * 5000 + 5000; omega
    | ⟨1, _⟩ =>
      show win0_4.index _ (1 : Fin 2) * 128 ≤ (i 1).val ∧ (i 1).val < win0_4.index _ (1 : Fin 2) * 128 + 128
      rw [e1]; omega

/-! # The second hidden-layer region

The same body over the second layer's arrays; each statement is the first region's with that region's windows. -/

/-- The arrays the region reads, as it finds them: the first layer's output as node features, its neighbourhood sums,
    the second weight matrix and the second bias row. -/
abbrev feat3 (c : Dev nD) : S50000x128.Idx → EReal := V c main_v28
abbrev nbr3 (c : Dev nD) : S50000x128.Idx → EReal := V c main_v38
abbrev wt3 (c : Dev nD) : S128x128.Idx → EReal := V c main_arg4
abbrev bias3 (c : Dev nD) : S1x128.Idx → EReal := V c main_v39

/-- The hidden activation of the whole array, as one function of those four arrays. -/
abbrev hid3 (c : Dev nD) : S50000x128.Idx → EReal := fun i =>
  GinSpec.hidden (fun i' => feat3 V c i' + nbr3 V c i') (wt3 V c) (fun j => bias3 V c (ix2 0 j)) (i 0) (i 1)

/-- Which block each window holds at point `t`. Decided over the ten points. -/
theorem blocks3 : ∀ t : Fin cfg3.N,
    win3_0.index t (0 : Fin 2) = t.val ∧ win3_0.index t (1 : Fin 2) = 0
  ∧ win3_1.index t (0 : Fin 2) = t.val ∧ win3_1.index t (1 : Fin 2) = 0
  ∧ win3_2.index t (0 : Fin 2) = 0 ∧ win3_2.index t (1 : Fin 2) = 0
  ∧ win3_3.index t (0 : Fin 2) = 0 ∧ win3_3.index t (1 : Fin 2) = 0
  ∧ win3_4.index t (0 : Fin 2) = t.val ∧ win3_4.index t (1 : Fin 2) = 0 :=
  (by decide +kernel : ∀ t : Fin grid3.N, _)

/-- Entry `(p, k)` of the feature block at point `t` is entry `(5000 t + p, k)` of the feature array. -/
theorem featBlk3 (c : Dev nD) (t : Fin cfg3.N) (p : Fin 5000) (k : Fin 128) (n : Fin 50000) (hn : n.val = t.val * 5000 + p.val) :
    (iblk3 V c 0 t : Vec Ideal S5000x128 .f32) (ix2 p k) = feat3 V c (ix2 n k) := by
  obtain ⟨e0, e1, -⟩ := blocks3 t
  unfold iblk3
  rw [View.read_apply]
  show V c main_v28 _ = V c main_v28 _
  congr 1
  funext a; apply Fin.ext
  match a with
  | ⟨0, _⟩ => show win3_0.index t 0 * 5000 + 1 * p.val = n.val; rw [e0, hn]; omega
  | ⟨1, _⟩ => show win3_0.index t 1 * 128 + 1 * k.val = k.val; rw [e1]; omega

/-- Entry `(p, k)` of the neighbourhood-sum block at point `t` is entry `(5000 t + p, k)` of that array. -/
theorem nbrBlk3 (c : Dev nD) (t : Fin cfg3.N) (p : Fin 5000) (k : Fin 128) (n : Fin 50000) (hn : n.val = t.val * 5000 + p.val) :
    (iblk3 V c 1 t : Vec Ideal S5000x128 .f32) (ix2 p k) = nbr3 V c (ix2 n k) := by
  obtain ⟨-, -, e0, e1, -⟩ := blocks3 t
  unfold iblk3
  rw [View.read_apply]
  show V c main_v38 _ = V c main_v38 _
  congr 1
  funext a; apply Fin.ext
  match a with
  | ⟨0, _⟩ => show win3_1.index t 0 * 5000 + 1 * p.val = n.val; rw [e0, hn]; omega
  | ⟨1, _⟩ => show win3_1.index t 1 * 128 + 1 * k.val = k.val; rw [e1]; omega

/-- The weight window's block is the whole matrix at every point. -/
theorem wtBlk3 (c : Dev nD) (t : Fin cfg3.N) (k q : Fin 128) :
    (iblk3 V c 2 t : Vec Ideal S128x128 .f32) (ix2 k q) = wt3 V c (ix2 k q) := by
  obtain ⟨-, -, -, -, e0, e1, -⟩ := blocks3 t
  unfold iblk3
  rw [View.read_apply]
  show V c main_arg4 _ = V c main_arg4 _
  congr 1
  funext a; apply Fin.ext
  match a with
  | ⟨0, _⟩ => show win3_2.index t 0 * 128 + 1 * k.val = k.val; rw [e0]; omega
  | ⟨1, _⟩ => show win3_2.index t 1 * 128 + 1 * q.val = q.val; rw [e1]; omega

/-- The bias window's block is the whole row at every point. -/
theorem biasBlk3 (c : Dev nD) (t : Fin cfg3.N) (q : Fin 128) :
    (iblk3 V c 3 t : Vec Ideal S1x128 .f32) (ix2 (0 : Fin 1) q) = bias3 V c (ix2 (0 : Fin 1) q) := by
  obtain ⟨-, -, -, -, -, -, e0, e1, -⟩ := blocks3 t
  unfold iblk3
  rw [View.read_apply]
  show V c main_v39 _ = V c main_v39 _
  congr 1
  funext a; apply Fin.ext
  match a with
  | ⟨0, _⟩ => show win3_3.index t 0 * 1 + 1 * 0 = 0; rw [e0]
  | ⟨1, _⟩ => show win3_3.index t 1 * 128 + 1 * q.val = q.val; rw [e1]; omega

/-- What the body stores at point `t`, read at block entry `j`, is the hidden activation at the array entry `i` that
    `j` is: row `5000 t + j₀`, column `j₁`. -/
theorem stored3_eq_hid (c : Dev nD) (t : Fin cfg3.N) (j : S5000x128.Idx) (i : S50000x128.Idx)
    (h0 : (i 0).val = t.val * 5000 + (j 0).val) (h1 : (i 1).val = (j 1).val) :
    k3_pay1 (iblk3 V c 0 t) (iblk3 V c 1 t) (iblk3 V c 2 t) (iblk3 V c 3 t) j = hid3 V c i := by
  obtain ⟨p, q, rfl⟩ : ∃ (p : Fin 5000) (q : Fin 128), j = ix2 p q := ⟨j 0, j 1, eq_ix2 j⟩
  obtain ⟨n, q', rfl⟩ : ∃ (n : Fin 50000) (q' : Fin 128), i = ix2 n q' := ⟨i 0, i 1, eq_ix2 i⟩
  have hn : n.val = t.val * 5000 + p.val := h0
  obtain rfl : q' = q := Fin.ext h1
  refine (stored3_entry (iblk3 V c 0 t) (iblk3 V c 1 t) (iblk3 V c 2 t) (iblk3 V c 3 t) p q').trans ?_
  show _ = max ((∑ k : Fin 128, (feat3 V c (ix2 n k) + nbr3 V c (ix2 n k)) * wt3 V c (ix2 k q')) + bias3 V c (ix2 0 q')) 0
  refine congrArg₂ max (congrArg₂ (· + ·) (Finset.sum_congr rfl fun k _ => ?_) (biasBlk3 V c t q')) rfl
  rw [featBlk3 V c t p k n hn, nbrBlk3 V c t p k n hn, wtBlk3 V c t k q']

/-- What point `t` writes back is block `t` of the hidden activation of the entry arrays. -/
theorem writeback3 (c : Dev nD) (t : Fin cfg3.N) :
    (dat3 (F := Ideal) V c).flushed 4 t = ((cfg3.win 4).blk t).view.read (Elt Ideal) (hid3 V c) := by
  obtain ⟨-, -, -, -, -, -, -, -, e0, e1⟩ := blocks3 t
  show (cfg3.win 4).cut (grid3.coords t) ((dat3 V c).after 4 t) = _
  rw [after3_4]
  unfold out3_4
  rw [View.canon_unit_zero hz]
  simp only [View.ld_unit_zero (S := S5000x128) hz, View.ld_unit_zero (S := S128x128) hz, View.ld_unit_zero (S := S1x128) hz]
  funext j
  show k3_pay1 (iblk3 V c 0 t) (iblk3 V c 1 t) (iblk3 V c 2 t) (iblk3 V c 3 t) j = hid3 V c (((cfg3.win 4).blk t).view.emb j)
  refine stored3_eq_hid V c t j _ ?_ ?_
  · show win3_4.index t 0 * 5000 + 1 * (j 0).val = t.val * 5000 + (j 0).val; rw [e0]; omega
  · show win3_4.index t 1 * 128 + 1 * (j 1).val = (j 1).val; rw [e1]; omega

/-- An entry of the output array lies in point `t`'s block iff each coordinate lies in the block's range on its axis. -/
theorem mem_outBlk3 (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v40).slice (win3_4.rect t)).set ↔ _
  rw [View.set_slice_whole, Rect.mem_set_unit]
  exact Iff.rfl

/-- THE SECOND REGION'S OUTPUT ARRAY after its run: the hidden activation of the arrays the region found. -/
theorem mlp3 (c : Dev nD) : (dat3 (F := Ideal) V c).arrAt 4 cfg3.N = hid3 V c :=
  (dat3 V c).arrAt_eq_of_cover 4 (hid3 V c) (fun t _ => writeback3 V c t) fun i => by
    have hi0 : (i 0).val < 50000 := (i 0).isLt
    have hi1 : (i 1).val < 128 := (i 1).isLt
    have hN : cfg3.N = 10 := N_3
    refine ⟨⟨(i 0).val / 5000, by rw [hN]; omega⟩, flush3_4 _, ?_⟩
    obtain ⟨-, -, -, -, -, -, -, -, e0, e1⟩ := blocks3 ⟨(i 0).val / 5000, by rw [hN]; omega⟩
    rw [mem_outBlk3]
    intro a
    match a with
    | ⟨0, _⟩ =>
      show win3_4.index _ (0 : Fin 2) * 5000 ≤ (i 0).val ∧ (i 0).val < win3_4.index _ (0 : Fin 2) * 5000 + 5000
      rw [e0]; show (i 0).val / 5000 * 5000 ≤ (i 0).val ∧ (i 0).val < (i 0).val / 5000 * 5000 + 5000; omega
    | ⟨1, _⟩ =>
      show win3_4.index _ (1 : Fin 2) * 128 ≤ (i 1).val ∧ (i 1).val < win3_4.index _ (1 : Fin 2) * 128 + 128
      rw [e1]; omega

end Cert.KernelIdeal.RegionMlp

end
-- ==== Proof.RegionStats.lean ====
/-
  The two statistics regions of the kernel program, read as whole-array functions over the extended reals.

  Each region walks the 50000 × 128 input in ten row blocks of 5000 rows. At the first block it resets two 1 × 128
  accumulators to zero; at every block it adds, column by column, the block's row sum to the first and the row sum of
  the squares to the second. Both accumulators are written back once, after the last block. So after the run the first
  output array holds, at column j, the sum over all 50000 rows of the input at (n, j), and the second the sum of the
  squares: the column sums `colSum` of the specification.

  The argument: what one block's step leaves (four equations per region), those read at a column (a sum over the
  5000 rows of the block added to what was there), the block's rows as rows 5000 t … 5000 t + 4999 of the array, the
  partial sums after each block by induction on the block, and the last partial sum re-indexed as the sum over all rows.
-/
import proofs.«101512_j37709812859563_1_alg».proof.Proof.KernelIdealFrame
import proofs.«101512_j37709812859563_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.GinSpec

namespace Cert.KernelIdeal.RegionStats

theorem hz : (![0, 0] : Fin 2 → Nat) = fun _ => 0 := funext fun a => by fin_cases a <;> rfl

/-! ## What one block's step leaves in the two accumulators -/

section Steps
variable {F : FTy → Type} [FloatOps F]

/-- First region, a later block: the first accumulator becomes the step's first payload of the block and of what it held. -/
theorem out1_B_1_eq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S5000x128 .f32) (xo1 xo2 : Vec F S1x128 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  sl_unfold_words
  rw [View.canon_unit_zero hz]
  simp only [View.readAt_eq_ld, h1.read_unread, h2.read_unread, View.ld_unit_zero (S := S5000x128) hz,
    View.ld_unit_zero (S := S1x128) hz]

/-- First region, a later block: the second accumulator becomes the step's second payload of the block and of what it held. -/
theorem out1_B_2_eq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S5000x128 .f32) (xo1 xo2 : Vec F S1x128 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  sl_unfold_words
  rw [View.canon_unit_zero hz]
  simp only [View.readAt_eq_ld, h1.read_unread, h3.read_unread, View.ld_unit_zero (S := S5000x128) hz,
    View.ld_unit_zero (S := S1x128) hz]

/-- First region, the first block: the first accumulator is reset to the zero row, then updated from it. -/
theorem out1_A_1_eq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S5000x128 .f32) :
    out1_A_1 c i a1 h1 a2 h2 a3 h3 hc x = k1_pay4 x (k1_pay1 (F := F)) := by
  unfold out1_A_1
  rw [View.read_writes_eq_canon _ _ _ (cover1_A_1 c i a1 h1 a2 h2 a3 h3 hc x)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S5000x128) hz]

/-- First region, the first block: the second accumulator is reset to the zero row, then updated from it. -/
theorem out1_A_2_eq (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S5000x128 .f32) :
    out1_A_2 c i a1 h1 a2 h2 a3 h3 hc x = k1_pay5 x (k1_pay2 (F := F)) := by
  unfold out1_A_2
  rw [View.read_writes_eq_canon _ _ _ (cover1_A_2 c i a1 h1 a2 h2 a3 h3 hc x)]
  unfold kernelRun1_A
  dsimp only
  sl_unfold_words
  rw [View.canon_cons_unit_zero (S := S1x128) hz, View.readCov_unit_zero (S := S1x128) _ hz]
  simp only [View.readAt_eq_ld, h1.read_unread, View.ld_unit_zero (S := S5000x128) hz]

/-- Second region, a later block: the first accumulator. -/
theorem out4_B_1_eq (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec F S5000x128 .f32) (xo1 xo2 : Vec F S1x128 .f32) :
    out4_B_1 c i a1 h1 a2 h2 a3 h3 hc x xo1 xo2 = k4_pay4 x xo1 := by
  unfold out4_B_1
  rw [View.read_writes_eq_canon _ _ _ (cover4_B_1 c i a1 h1 a2 h2 a3 h3 hc x xo1 xo2)]
  unfold kernelRun4_B
  dsimp only
  sl_unfold_words
  rw [View.canon_unit_zero hz]
  simp only [View.readAt_eq_ld, h1.read_unread, h2.read_unread, View.ld_unit_zero (S := S5000x128) hz,
    View.ld_unit_zero (S := S1x128) hz]

/-- Second region, a later block: the second accumulator. -/
theorem out4_B_2_eq (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec F S5000x128 .f32) (xo1 xo2 : Vec F S1x128 .f32) :
    out4_B_2 c i a1 h1 a2 h2 a3 h3 hc x xo1 xo2 = k4_pay5 x xo2 := by
  unfold out4_B_2
  rw [View.read_writes_eq_canon _ _ _ (cover4_B_2 c i a1 h1 a2 h2 a3 h3 hc x xo1 xo2)]
  unfold kernelRun4_B
  dsimp only
  sl_unfold_words
  rw [View.canon_unit_zero hz]
  simp only [View.readAt_eq_ld, h1.read_unread, h3.read_unread, View.ld_unit_zero (S := S5000x128) hz,
    View.ld_unit_zero (S := S1x128) hz]

/-- Second region, the first block: the first accumulator is reset to the zero row, then updated from it. -/
theorem out4_A_1_eq (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond4_0 i) (x : Vec F S5000x128 .f32) :
    out4_A_1 c i a1 h1 a2 h2 a3 h3 hc x = k4_pay4 x (k4_pay1 (F := F)) := by
  unfold out4_A_1
  rw [View.read_writes_eq_canon _ _ _ (cover4_A_1 c i a1 h1 a2 h2 a3 h3 hc x)]
  unfold kernelRun4_A
  dsimp only
  sl_unfold_words
  rw [View.canon_cons_unit_zero (S := S1x128) hz, View.readCov_unit_zero (S := S1x128) _ hz]
  simp only [View.readAt_eq_ld, h1.read_unread, View.ld_unit_zero (S := S5000x128) hz]

/-- Second region, the first block: the second accumulator is reset to the zero row, then updated from it. -/
theorem out4_A_2_eq (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond4_0 i) (x : Vec F S5000x128 .f32) :
    out4_A_2 c i a1 h1 a2 h2 a3 h3 hc x = k4_pay5 x (k4_pay2 (F := F)) := by
  unfold out4_A_2
  rw [View.read_writes_eq_canon _ _ _ (cover4_A_2 c i a1 h1 a2 h2 a3 h3 hc x)]
  unfold kernelRun4_A
  dsimp only
  sl_unfold_words
  rw [View.canon_cons_unit_zero (S := S1x128) hz, View.readCov_unit_zero (S := S1x128) _ hz]
  simp only [View.readAt_eq_ld, h1.read_unread, View.ld_unit_zero (S := S5000x128) hz]

end Steps

/-! ## The step's payloads at a column, over the extended reals -/

/-- The sum over the rows of a 5000 × 128 block, at column j. -/
theorem rowsum_apply (src : FVec Ideal S5000x128 .f32) (hφ : FKind.Formats .f32)
    (hacc : (0x00000000#32 : BitVec 32) = FKind.add.neutral .f32 hφ) (j : Fin 128) :
    multiReduction .add [0] S128 src 0x00000000#32 reduces_S5000x128_S128 hφ hacc (ix1 j) = ∑ r : Fin 5000, src (ix2 r j) := by
  refine (Ideal.multiReduction_add_single src 0x00000000#32 reduces_S5000x128_S128 hφ hacc (ix1 j)).trans ?_
  refine Finset.sum_congr rfl fun r _ => congrArg src (funext fun a => ?_)
  match a with
  | ⟨0, _⟩ => rfl
  | ⟨1, _⟩ => rfl

/-- First region: the first payload adds the block's column sum to the accumulator. -/
theorem k1_pay4_apply (x : Vec Ideal S5000x128 .f32) (v : Vec Ideal S1x128 .f32) (j : Fin 128) :
    (k1_pay4 x v : S1x128.Idx → EReal) (ix2 (0 : Fin 1) j) = (v (ix2 (0 : Fin 1) j) : EReal) + ∑ r : Fin 5000, (x (ix2 r j) : EReal) := by
  unfold k1_pay4 k1_pay3
  rw [addf_apply, shapeCast_self, shapeCast_self, shapeCast_a_1a_apply]
  exact congrArg (v (ix2 (0 : Fin 1) j) + ·) (rowsum_apply x _ _ j)

/-- First region: the second payload adds the block's column sum of squares to the accumulator. -/
theorem k1_pay5_apply (x : Vec Ideal S5000x128 .f32) (v : Vec Ideal S1x128 .f32) (j : Fin 128) :
    (k1_pay5 x v : S1x128.Idx → EReal) (ix2 (0 : Fin 1) j) = (v (ix2 (0 : Fin 1) j) : EReal) + ∑ r : Fin 5000, (x (ix2 r j) : EReal) * x (ix2 r j) := by
  unfold k1_pay5 k1_pay3
  rw [addf_apply, shapeCast_self, shapeCast_self, shapeCast_a_1a_apply]
  exact congrArg (v (ix2 (0 : Fin 1) j) + ·) (rowsum_apply (mulf x x) _ _ j)

/-- First region: the reset rows are zero. -/
theorem k1_pay1_apply (j : Fin 128) : (k1_pay1 (F := Ideal) : S1x128.Idx → EReal) (ix2 (0 : Fin 1) j) = 0 := by
  unfold k1_pay1
  exact Ideal.ofBits_zero_f32

theorem k1_pay2_apply (j : Fin 128) : (k1_pay2 (F := Ideal) : S1x128.Idx → EReal) (ix2 (0 : Fin 1) j) = 0 := by
  unfold k1_pay2
  exact Ideal.ofBits_zero_f32

/-- Second region: the first payload adds the block's column sum to the accumulator. -/
theorem k4_pay4_apply (x : Vec Ideal S5000x128 .f32) (v : Vec Ideal S1x128 .f32) (j : Fin 128) :
    (k4_pay4 x v : S1x128.Idx → EReal) (ix2 (0 : Fin 1) j) = (v (ix2 (0 : Fin 1) j) : EReal) + ∑ r : Fin 5000, (x (ix2 r j) : EReal) := by
  unfold k4_pay4 k4_pay3
  rw [addf_apply, shapeCast_self, shapeCast_self, shapeCast_a_1a_apply]
  exact congrArg (v (ix2 (0 : Fin 1) j) + ·) (rowsum_apply x _ _ j)

/-- Second region: the second payload adds the block's column sum of squares to the accumulator. -/
theorem k4_pay5_apply (x : Vec Ideal S5000x128 .f32) (v : Vec Ideal S1x128 .f32) (j : Fin 128) :
    (k4_pay5 x v : S1x128.Idx → EReal) (ix2 (0 : Fin 1) j) = (v (ix2 (0 : Fin 1) j) : EReal) + ∑ r : Fin 5000, (x (ix2 r j) : EReal) * x (ix2 r j) := by
  unfold k4_pay5 k4_pay3
  rw [addf_apply, shapeCast_self, shapeCast_self, shapeCast_a_1a_apply]
  exact congrArg (v (ix2 (0 : Fin 1) j) + ·) (rowsum_apply (mulf x x) _ _ j)

/-- Second region: the reset rows are zero. -/
theorem k4_pay1_apply (j : Fin 128) : (k4_pay1 (F := Ideal) : S1x128.Idx → EReal) (ix2 (0 : Fin 1) j) = 0 := by
  unfold k4_pay1
  exact Ideal.ofBits_zero_f32

theorem k4_pay2_apply (j : Fin 128) : (k4_pay2 (F := Ideal) : S1x128.Idx → EReal) (ix2 (0 : Fin 1) j) = 0 := by
  unfold k4_pay2
  exact Ideal.ofBits_zero_f32

/-! ## Partial sums down a column -/

/-- A column as a sequence over the naturals, zero past the last row. -/
def seqOf (f : Fin 50000 → EReal) (k : ℕ) : EReal := if h : k < 50000 then f ⟨k, h⟩ else 0

/-- Its sum over all the rows is the column's sum. -/
theorem sum_seqOf (f : Fin 50000 → EReal) : ∑ k ∈ Finset.range 50000, seqOf f k = ∑ n : Fin 50000, f n := by
  rw [← Fin.sum_univ_eq_sum_range]
  exact Finset.sum_congr rfl fun n _ => dif_pos n.isLt

/-- The sum over a block of 5000 rows that holds rows 5000 t … 5000 t + 4999 of the column. -/
theorem blk_sum (g : Fin 50000 → EReal) (b : Fin 5000 → EReal) (t : ℕ) (ht : t < 10)
    (hb : ∀ (r : Fin 5000) (h : 5000 * t + r.val < 50000), b r = g ⟨5000 * t + r.val, h⟩) :
    ∑ r : Fin 5000, b r = ∑ s ∈ Finset.range 5000, seqOf g (5000 * t + s) := by
  rw [← Fin.sum_univ_eq_sum_range (fun s => seqOf g (5000 * t + s)) 5000]
  refine Finset.sum_congr rfl fun r _ => ?_
  have hlt : 5000 * t + r.val < 50000 := by have := r.isLt; omega
  rw [hb r hlt]
  unfold seqOf
  rw [dif_pos hlt]

/-- One more block extends the partial sum by 5000 rows. -/
theorem psum_succ (g : ℕ → EReal) (n : ℕ) :
    (∑ k ∈ Finset.range (5000 * (n + 1)), g k) + ∑ s ∈ Finset.range 5000, g (5000 * (n + 1) + s)
      = ∑ k ∈ Finset.range (5000 * (n + 1 + 1)), g k := by
  rw [show 5000 * (n + 1 + 1) = 5000 * (n + 1) + 5000 by omega, Finset.sum_range_add]

/-! ## The first statistics region -/

section Region1
variable (V : (c : Dev nD) → (b : Ref sig .tc) → Buf (Elt Ideal) ((c : Thread nD τ).loc b))

/-- The region's input array as the region finds it. -/
abbrev inp1 (c : Dev nD) : S50000x128.Idx → EReal := V c main_v15

/-- Its entry at row n, column j. -/
abbrev X1 (c : Dev nD) (n : Fin 50000) (j : Fin 128) : EReal := inp1 V c (ix2 n j)

/-- Its row block at a point. -/
abbrev xblk1 (c : Dev nD) (t : Fin cfg1.N) : Vec Ideal S5000x128 .f32 := iblk1 V c 0 t

/-- The input window's block index at point t is (t, 0). -/
theorem index1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- Row r of the block at point t is row 5000 t + r of the array. -/
theorem xblk1_apply (c : Dev nD) (t : Fin cfg1.N) (r : Fin 5000) (j : Fin 128) (h : 5000 * t.val + r.val < 50000) :
    (xblk1 V c t (ix2 r j) : EReal) = X1 V c ⟨5000 * t.val + r.val, h⟩ j := by
  obtain ⟨e0, e1⟩ := index1_0 t
  show (iblk1 V c 0 t : Vec Ideal S5000x128 .f32) (ix2 r j) = _
  unfold iblk1
  rw [View.read_apply]
  show V c main_v15 _ = V c main_v15 _
  congr 1
  funext a
  apply Fin.ext
  match a with
  | ⟨0, _⟩ => show win1_0.index t 0 * 5000 + 1 * r.val = 5000 * t.val + r.val; rw [e0]; omega
  | ⟨1, _⟩ => show win1_0.index t 1 * 128 + 1 * j.val = j.val; rw [e1]; omega

/-- After point n the two accumulators hold, at column j, the sum and the sum of squares of rows 0 … 5000 (n + 1) - 1. -/
theorem outsAt1_psum (c : Dev nD) : ∀ (n : ℕ) (h : n < cfg1.N) (j : Fin 128),
    (((outsAt1 V c n h).1 : S1x128.Idx → EReal) (ix2 (0 : Fin 1) j)
        = ∑ k ∈ Finset.range (5000 * (n + 1)), seqOf (fun r => X1 V c r j) k)
      ∧ (((outsAt1 V c n h).2 : S1x128.Idx → EReal) (ix2 (0 : Fin 1) j)
        = ∑ k ∈ Finset.range (5000 * (n + 1)), seqOf (fun r => X1 V c r j * X1 V c r j) k)
  | 0, h, j => by
    rw [outsAt1_A V c ⟨0, h⟩ rfl]
    dsimp only
    constructor
    · refine (congrFun (out1_A_1_eq (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) ((hcond1_0 ⟨0, h⟩).mpr rfl) (xblk1 V c ⟨0, h⟩)) (ix2 (0 : Fin 1) j)).trans ?_
      refine (k1_pay4_apply (xblk1 V c ⟨0, h⟩) (k1_pay1 (F := Ideal)) j).trans ?_
      rw [k1_pay1_apply, zero_add, blk_sum (fun n => X1 V c n j) (fun r => (xblk1 V c ⟨0, h⟩ (ix2 r j) : EReal)) 0 (by omega)
        (fun r hr => xblk1_apply V c ⟨0, h⟩ r j hr)]
      simp only [Nat.mul_zero, Nat.zero_add, Nat.mul_one]
    · refine (congrFun (out1_A_2_eq (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) ((hcond1_0 ⟨0, h⟩).mpr rfl) (xblk1 V c ⟨0, h⟩)) (ix2 (0 : Fin 1) j)).trans ?_
      refine (k1_pay5_apply (xblk1 V c ⟨0, h⟩) (k1_pay2 (F := Ideal)) j).trans ?_
      rw [k1_pay2_apply, zero_add, blk_sum (fun n => X1 V c n j * X1 V c n j) (fun r => (xblk1 V c ⟨0, h⟩ (ix2 r j) : EReal) * xblk1 V c ⟨0, h⟩ (ix2 r j)) 0 (by omega)
        (fun r hr => by rw [xblk1_apply V c ⟨0, h⟩ r j hr])]
      simp only [Nat.mul_zero, Nat.zero_add, Nat.mul_one]
  | n + 1, h, j => by
    have hN : cfg1.N = 10 := N_1
    have hB : ¬(⟨n + 1, h⟩ : Fin cfg1.N).val % 10 = 0 := by dsimp only; omega
    have ih := outsAt1_psum c n (Nat.lt_of_succ_lt h) j
    rw [outsAt1_B V c ⟨n + 1, h⟩ hB]
    dsimp only
    constructor
    · refine (congrFun (out1_B_1_eq (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (fun hh => hB ((hcond1_0 ⟨n + 1, h⟩).mp hh)) (xblk1 V c ⟨n + 1, h⟩) (outsAt1 V c n (Nat.lt_of_succ_lt h)).1 (outsAt1 V c n (Nat.lt_of_succ_lt h)).2) (ix2 (0 : Fin 1) j)).trans ?_
      refine (k1_pay4_apply (xblk1 V c ⟨n + 1, h⟩) (outsAt1 V c n (Nat.lt_of_succ_lt h)).1 j).trans ?_
      rw [ih.1, blk_sum (fun r => X1 V c r j) (fun r => (xblk1 V c ⟨n + 1, h⟩ (ix2 r j) : EReal)) (n + 1) (by omega)
        (fun r hr => xblk1_apply V c ⟨n + 1, h⟩ r j hr)]
      exact psum_succ _ n
    · refine (congrFun (out1_B_2_eq (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (fun hh => hB ((hcond1_0 ⟨n + 1, h⟩).mp hh)) (xblk1 V c ⟨n + 1, h⟩) (outsAt1 V c n (Nat.lt_of_succ_lt h)).1 (outsAt1 V c n (Nat.lt_of_succ_lt h)).2) (ix2 (0 : Fin 1) j)).trans ?_
      refine (k1_pay5_apply (xblk1 V c ⟨n + 1, h⟩) (outsAt1 V c n (Nat.lt_of_succ_lt h)).2 j).trans ?_
      rw [ih.2, blk_sum (fun r => X1 V c r j * X1 V c r j) (fun r => (xblk1 V c ⟨n + 1, h⟩ (ix2 r j) : EReal) * xblk1 V c ⟨n + 1, h⟩ (ix2 r j)) (n + 1) (by omega)
        (fun r hr => by rw [xblk1_apply V c ⟨n + 1, h⟩ r j hr])]
      exact psum_succ _ n

/-- After the last point the first accumulator holds the column sums. -/
theorem outsAt1_last_fst (c : Dev nD) :
    ((outsAt1 V c t1_9.val t1_9.isLt).1 : S1x128.Idx → EReal)
      = fun y => colSum (fun n j => inp1 V c (ix2 n j)) (y 1) := by
  funext y
  obtain ⟨u, j, rfl⟩ : ∃ (u : Fin 1) (j : Fin 128), y = ix2 u j := ⟨y 0, y 1, eq_ix2 y⟩
  obtain rfl : u = 0 := Subsingleton.elim _ _
  exact ((outsAt1_psum V c 9 t1_9.isLt j).1).trans (sum_seqOf _)

/-- After the last point the second accumulator holds the column sums of squares. -/
theorem outsAt1_last_snd (c : Dev nD) :
    ((outsAt1 V c t1_9.val t1_9.isLt).2 : S1x128.Idx → EReal)
      = fun y => colSum (fun n j => inp1 V c (ix2 n j) * inp1 V c (ix2 n j)) (y 1) := by
  funext y
  obtain ⟨u, j, rfl⟩ : ∃ (u : Fin 1) (j : Fin 128), y = ix2 u j := ⟨y 0, y 1, eq_ix2 y⟩
  obtain rfl : u = 0 := Subsingleton.elim _ _
  exact ((outsAt1_psum V c 9 t1_9.isLt j).2).trans (sum_seqOf _)

/-- The one write-back of the first output, after the last point, writes the column sums. -/
theorem flushed1_1_eq (c : Dev nD) (t : Fin cfg1.N) (hf : (cfg1.win 1).flush t = true) :
    (dat1 V c).flushed 1 t = ((cfg1.win 1).blk t).view.read (Elt Ideal)
      (fun y => colSum (fun n j => inp1 V c (ix2 n j)) (y 1)) := by
  have hN : cfg1.N = 10 := N_1
  have h9 : t.val = 9 := by have := (flush1_1 t).mp hf; have := t.isLt; omega
  obtain rfl : t = t1_9 := Fin.ext h9
  show (cfg1.win 1).cut (grid1.coords t1_9) ((dat1 V c).after 1 t1_9) = _
  rw [after1_1, outsAt1_last_fst]
  have hz' : (fun a => win1_1.index t1_9 a * main_v16_0.ty.shape.size a) = fun _ => 0 := funext fun a => by fin_cases a <;> decide
  exact (Memref.read_access_unit_zero (Elt Ideal) main_v16_0 hz' (fun a => by rw [congrFun hz' a]; simp) _).symm

/-- The one write-back of the second output, after the last point, writes the column sums of squares. -/
theorem flushed1_2_eq (c : Dev nD) (t : Fin cfg1.N) (hf : (cfg1.win 2).flush t = true) :
    (dat1 V c).flushed 2 t = ((cfg1.win 2).blk t).view.read (Elt Ideal)
      (fun y => colSum (fun n j => inp1 V c (ix2 n j) * inp1 V c (ix2 n j)) (y 1)) := by
  have hN : cfg1.N = 10 := N_1
  have h9 : t.val = 9 := by have := (flush1_2 t).mp hf; have := t.isLt; omega
  obtain rfl : t = t1_9 := Fin.ext h9
  show (cfg1.win 2).cut (grid1.coords t1_9) ((dat1 V c).after 2 t1_9) = _
  rw [after1_2, outsAt1_last_snd]
  have hz' : (fun a => win1_2.index t1_9 a * main_v16_1.ty.shape.size a) = fun _ => 0 := funext fun a => by fin_cases a <;> decide
  exact (Memref.read_access_unit_zero (Elt Ideal) main_v16_1 hz' (fun a => by rw [congrFun hz' a]; simp) _).symm

/-- The first output's array after the run: the column sums of the input. -/
theorem stats1_sum (c : Dev nD) : ((dat1 (F := Ideal) V c).arrAt 1 cfg1.N : S1x128.Idx → EReal)
    = fun y => colSum (fun n j => (V c main_v15 : S50000x128.Idx → EReal) (ix2 n j)) (y 1) :=
  (dat1 V c).arrAt_eq_of_cover 1 _ (flushed1_1_eq V c) fun i =>
    ⟨t1_9, (flush1_1 t1_9).mpr rfl, by
      show i ∈ ((View.whole main_v16_0).slice (win1_1.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_1.index t1_9 0 * win1_1.size 0 ≤ (i 0 : Nat) ∧ (i 0 : Nat) < win1_1.index t1_9 0 * win1_1.size 0 + win1_1.xsize (grid1.coords t1_9) 0
                  rw [show win1_1.index t1_9 0 * win1_1.size 0 = 0 from by decide +kernel, show win1_1.xsize (grid1.coords t1_9) 0 = 1 from by decide +kernel]; omega
      | ⟨1, _⟩ => show win1_1.index t1_9 1 * win1_1.size 1 ≤ (i 1 : Nat) ∧ (i 1 : Nat) < win1_1.index t1_9 1 * win1_1.size 1 + win1_1.xsize (grid1.coords t1_9) 1
                  rw [show win1_1.index t1_9 1 * win1_1.size 1 = 0 from by decide +kernel, show win1_1.xsize (grid1.coords t1_9) 1 = 128 from by decide +kernel]; omega⟩

/-- The second output's array after the run: the column sums of the input's squares. -/
theorem stats1_sumsq (c : Dev nD) : ((dat1 (F := Ideal) V c).arrAt 2 cfg1.N : S1x128.Idx → EReal)
    = fun y => colSum (fun n j => inp1 V c (ix2 n j) * inp1 V c (ix2 n j)) (y 1) :=
  (dat1 V c).arrAt_eq_of_cover 2 _ (flushed1_2_eq V c) fun i =>
    ⟨t1_9, (flush1_2 t1_9).mpr rfl, by
      show i ∈ ((View.whole main_v16_1).slice (win1_2.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_2.index t1_9 0 * win1_2.size 0 ≤ (i 0 : Nat) ∧ (i 0 : Nat) < win1_2.index t1_9 0 * win1_2.size 0 + win1_2.xsize (grid1.coords t1_9) 0
                  rw [show win1_2.index t1_9 0 * win1_2.size 0 = 0 from by decide +kernel, show win1_2.xsize (grid1.coords t1_9) 0 = 1 from by decide +kernel]; omega
      | ⟨1, _⟩ => show win1_2.index t1_9 1 * win1_2.size 1 ≤ (i 1 : Nat) ∧ (i 1 : Nat) < win1_2.index t1_9 1 * win1_2.size 1 + win1_2.xsize (grid1.coords t1_9) 1
                  rw [show win1_2.index t1_9 1 * win1_2.size 1 = 0 from by decide +kernel, show win1_2.xsize (grid1.coords t1_9) 1 = 128 from by decide +kernel]; omega⟩

/-- The same, for the input array known as a function x. -/
theorem stats1_sum_of_eq (c : Dev nD) (x : S50000x128.Idx → EReal) (hx : (V c main_v15 : S50000x128.Idx → EReal) = x) :
    ((dat1 (F := Ideal) V c).arrAt 1 cfg1.N : S1x128.Idx → EReal) = fun y => colSum (fun n j => x (ix2 n j)) (y 1) := by
  subst hx; exact stats1_sum V c

theorem stats1_sumsq_of_eq (c : Dev nD) (x : S50000x128.Idx → EReal) (hx : (V c main_v15 : S50000x128.Idx → EReal) = x) :
    ((dat1 (F := Ideal) V c).arrAt 2 cfg1.N : S1x128.Idx → EReal) = fun y => colSum (fun n j => x (ix2 n j) * x (ix2 n j)) (y 1) := by
  subst hx; exact stats1_sumsq V c

end Region1

/-! ## The second statistics region -/

section Region4
variable (V : (c : Dev nD) → (b : Ref sig .tc) → Buf (Elt Ideal) ((c : Thread nD τ).loc b))

/-- The region's input array as the region finds it. -/
abbrev inp4 (c : Dev nD) : S50000x128.Idx → EReal := V c main_v40

/-- Its entry at row n, column j. -/
abbrev X4 (c : Dev nD) (n : Fin 50000) (j : Fin 128) : EReal := inp4 V c (ix2 n j)

/-- Its row block at a point. -/
abbrev xblk4 (c : Dev nD) (t : Fin cfg4.N) : Vec Ideal S5000x128 .f32 := iblk4 V c 0 t

/-- The input window's block index at point t is (t, 0). -/
theorem index4_0 : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)

/-- Row r of the block at point t is row 5000 t + r of the array. -/
theorem xblk4_apply (c : Dev nD) (t : Fin cfg4.N) (r : Fin 5000) (j : Fin 128) (h : 5000 * t.val + r.val < 50000) :
    (xblk4 V c t (ix2 r j) : EReal) = X4 V c ⟨5000 * t.val + r.val, h⟩ j := by
  obtain ⟨e0, e1⟩ := index4_0 t
  show (iblk4 V c 0 t : Vec Ideal S5000x128 .f32) (ix2 r j) = _
  unfold iblk4
  rw [View.read_apply]
  show V c main_v40 _ = V c main_v40 _
  congr 1
  funext a
  apply Fin.ext
  match a with
  | ⟨0, _⟩ => show win4_0.index t 0 * 5000 + 1 * r.val = 5000 * t.val + r.val; rw [e0]; omega
  | ⟨1, _⟩ => show win4_0.index t 1 * 128 + 1 * j.val = j.val; rw [e1]; omega

/-- After point n the two accumulators hold, at column j, the sum and the sum of squares of rows 0 … 5000 (n + 1) - 1. -/
theorem outsAt4_psum (c : Dev nD) : ∀ (n : ℕ) (h : n < cfg4.N) (j : Fin 128),
    (((outsAt4 V c n h).1 : S1x128.Idx → EReal) (ix2 (0 : Fin 1) j)
        = ∑ k ∈ Finset.range (5000 * (n + 1)), seqOf (fun r => X4 V c r j) k)
      ∧ (((outsAt4 V c n h).2 : S1x128.Idx → EReal) (ix2 (0 : Fin 1) j)
        = ∑ k ∈ Finset.range (5000 * (n + 1)), seqOf (fun r => X4 V c r j * X4 V c r j) k)
  | 0, h, j => by
    rw [outsAt4_A V c ⟨0, h⟩ rfl]
    dsimp only
    constructor
    · refine (congrFun (out4_A_1_eq (F := Ideal) c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) ((hcond4_0 ⟨0, h⟩).mpr rfl) (xblk4 V c ⟨0, h⟩)) (ix2 (0 : Fin 1) j)).trans ?_
      refine (k4_pay4_apply (xblk4 V c ⟨0, h⟩) (k4_pay1 (F := Ideal)) j).trans ?_
      rw [k4_pay1_apply, zero_add, blk_sum (fun n => X4 V c n j) (fun r => (xblk4 V c ⟨0, h⟩ (ix2 r j) : EReal)) 0 (by omega)
        (fun r hr => xblk4_apply V c ⟨0, h⟩ r j hr)]
      simp only [Nat.mul_zero, Nat.zero_add, Nat.mul_one]
    · refine (congrFun (out4_A_2_eq (F := Ideal) c (grid4.coords ⟨0, h⟩) (ms4_0 ⟨0, h⟩) (hs4_0 ⟨0, h⟩) (ms4_1 ⟨0, h⟩) (hs4_1 ⟨0, h⟩) (ms4_2 ⟨0, h⟩) (hs4_2 ⟨0, h⟩) ((hcond4_0 ⟨0, h⟩).mpr rfl) (xblk4 V c ⟨0, h⟩)) (ix2 (0 : Fin 1) j)).trans ?_
      refine (k4_pay5_apply (xblk4 V c ⟨0, h⟩) (k4_pay2 (F := Ideal)) j).trans ?_
      rw [k4_pay2_apply, zero_add, blk_sum (fun n => X4 V c n j * X4 V c n j) (fun r => (xblk4 V c ⟨0, h⟩ (ix2 r j) : EReal) * xblk4 V c ⟨0, h⟩ (ix2 r j)) 0 (by omega)
        (fun r hr => by rw [xblk4_apply V c ⟨0, h⟩ r j hr])]
      simp only [Nat.mul_zero, Nat.zero_add, Nat.mul_one]
  | n + 1, h, j => by
    have hN : cfg4.N = 10 := N_4
    have hB : ¬(⟨n + 1, h⟩ : Fin cfg4.N).val % 10 = 0 := by dsimp only; omega
    have ih := outsAt4_psum c n (Nat.lt_of_succ_lt h) j
    rw [outsAt4_B V c ⟨n + 1, h⟩ hB]
    dsimp only
    constructor
    · refine (congrFun (out4_B_1_eq (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (fun hh => hB ((hcond4_0 ⟨n + 1, h⟩).mp hh)) (xblk4 V c ⟨n + 1, h⟩) (outsAt4 V c n (Nat.lt_of_succ_lt h)).1 (outsAt4 V c n (Nat.lt_of_succ_lt h)).2) (ix2 (0 : Fin 1) j)).trans ?_
      refine (k4_pay4_apply (xblk4 V c ⟨n + 1, h⟩) (outsAt4 V c n (Nat.lt_of_succ_lt h)).1 j).trans ?_
      rw [ih.1, blk_sum (fun r => X4 V c r j) (fun r => (xblk4 V c ⟨n + 1, h⟩ (ix2 r j) : EReal)) (n + 1) (by omega)
        (fun r hr => xblk4_apply V c ⟨n + 1, h⟩ r j hr)]
      exact psum_succ _ n
    · refine (congrFun (out4_B_2_eq (F := Ideal) c (grid4.coords ⟨n + 1, h⟩) (ms4_0 ⟨n + 1, h⟩) (hs4_0 ⟨n + 1, h⟩) (ms4_1 ⟨n + 1, h⟩) (hs4_1 ⟨n + 1, h⟩) (ms4_2 ⟨n + 1, h⟩) (hs4_2 ⟨n + 1, h⟩) (fun hh => hB ((hcond4_0 ⟨n + 1, h⟩).mp hh)) (xblk4 V c ⟨n + 1, h⟩) (outsAt4 V c n (Nat.lt_of_succ_lt h)).1 (outsAt4 V c n (Nat.lt_of_succ_lt h)).2) (ix2 (0 : Fin 1) j)).trans ?_
      refine (k4_pay5_apply (xblk4 V c ⟨n + 1, h⟩) (outsAt4 V c n (Nat.lt_of_succ_lt h)).2 j).trans ?_
      rw [ih.2, blk_sum (fun r => X4 V c r j * X4 V c r j) (fun r => (xblk4 V c ⟨n + 1, h⟩ (ix2 r j) : EReal) * xblk4 V c ⟨n + 1, h⟩ (ix2 r j)) (n + 1) (by omega)
        (fun r hr => by rw [xblk4_apply V c ⟨n + 1, h⟩ r j hr])]
      exact psum_succ _ n

/-- After the last point the first accumulator holds the column sums. -/
theorem outsAt4_last_fst (c : Dev nD) :
    ((outsAt4 V c t4_9.val t4_9.isLt).1 : S1x128.Idx → EReal)
      = fun y => colSum (fun n j => inp4 V c (ix2 n j)) (y 1) := by
  funext y
  obtain ⟨u, j, rfl⟩ : ∃ (u : Fin 1) (j : Fin 128), y = ix2 u j := ⟨y 0, y 1, eq_ix2 y⟩
  obtain rfl : u = 0 := Subsingleton.elim _ _
  exact ((outsAt4_psum V c 9 t4_9.isLt j).1).trans (sum_seqOf _)

/-- After the last point the second accumulator holds the column sums of squares. -/
theorem outsAt4_last_snd (c : Dev nD) :
    ((outsAt4 V c t4_9.val t4_9.isLt).2 : S1x128.Idx → EReal)
      = fun y => colSum (fun n j => inp4 V c (ix2 n j) * inp4 V c (ix2 n j)) (y 1) := by
  funext y
  obtain ⟨u, j, rfl⟩ : ∃ (u : Fin 1) (j : Fin 128), y = ix2 u j := ⟨y 0, y 1, eq_ix2 y⟩
  obtain rfl : u = 0 := Subsingleton.elim _ _
  exact ((outsAt4_psum V c 9 t4_9.isLt j).2).trans (sum_seqOf _)

/-- The one write-back of the first output, after the last point, writes the column sums. -/
theorem flushed4_1_eq (c : Dev nD) (t : Fin cfg4.N) (hf : (cfg4.win 1).flush t = true) :
    (dat4 V c).flushed 1 t = ((cfg4.win 1).blk t).view.read (Elt Ideal)
      (fun y => colSum (fun n j => inp4 V c (ix2 n j)) (y 1)) := by
  have hN : cfg4.N = 10 := N_4
  have h9 : t.val = 9 := by have := (flush4_1 t).mp hf; have := t.isLt; omega
  obtain rfl : t = t4_9 := Fin.ext h9
  show (cfg4.win 1).cut (grid4.coords t4_9) ((dat4 V c).after 1 t4_9) = _
  rw [after4_1, outsAt4_last_fst]
  have hz' : (fun a => win4_1.index t4_9 a * main_v41_0.ty.shape.size a) = fun _ => 0 := funext fun a => by fin_cases a <;> decide
  exact (Memref.read_access_unit_zero (Elt Ideal) main_v41_0 hz' (fun a => by rw [congrFun hz' a]; simp) _).symm

/-- The one write-back of the second output, after the last point, writes the column sums of squares. -/
theorem flushed4_2_eq (c : Dev nD) (t : Fin cfg4.N) (hf : (cfg4.win 2).flush t = true) :
    (dat4 V c).flushed 2 t = ((cfg4.win 2).blk t).view.read (Elt Ideal)
      (fun y => colSum (fun n j => inp4 V c (ix2 n j) * inp4 V c (ix2 n j)) (y 1)) := by
  have hN : cfg4.N = 10 := N_4
  have h9 : t.val = 9 := by have := (flush4_2 t).mp hf; have := t.isLt; omega
  obtain rfl : t = t4_9 := Fin.ext h9
  show (cfg4.win 2).cut (grid4.coords t4_9) ((dat4 V c).after 2 t4_9) = _
  rw [after4_2, outsAt4_last_snd]
  have hz' : (fun a => win4_2.index t4_9 a * main_v41_1.ty.shape.size a) = fun _ => 0 := funext fun a => by fin_cases a <;> decide
  exact (Memref.read_access_unit_zero (Elt Ideal) main_v41_1 hz' (fun a => by rw [congrFun hz' a]; simp) _).symm

/-- The first output's array after the run: the column sums of the input. -/
theorem stats4_sum (c : Dev nD) : ((dat4 (F := Ideal) V c).arrAt 1 cfg4.N : S1x128.Idx → EReal)
    = fun y => colSum (fun n j => (V c main_v40 : S50000x128.Idx → EReal) (ix2 n j)) (y 1) :=
  (dat4 V c).arrAt_eq_of_cover 1 _ (flushed4_1_eq V c) fun i =>
    ⟨t4_9, (flush4_1 t4_9).mpr rfl, by
      show i ∈ ((View.whole main_v41_0).slice (win4_1.rect t4_9)).set
      rw [View.set_slice_whole, Rect.mem_set_unit]
      intro a
      have h0 : (i 0 : Nat) < 1 := (i 0).isLt
      have h1 : (i 1 : Nat) < 128 := (i 1).isLt
      match a with
      | ⟨0, _⟩ => show win4_1.index t4_9 0 * win4_1.size 0 ≤ (i 0 : Nat) ∧ (i 0 : Nat) < win4_1.index t4_9 0 * win4_1.size 0 + win4_1.xsize (grid4.coords t4_9) 0
                  rw [show win4_1.index t4_9 0 * win4_1.size 0 = 0 from by decide +kernel, show win4_1.xsize (grid4.coords t4_9) 0 = 1 from by decide +kernel]; omega
      | ⟨1, _⟩ => show win4_1.index t4_9 1 * win4_1.size 1 ≤ (i 1 : Nat) ∧ (i 1 : Nat) < win4_1.index t4_9 1 * win4_1.size 1 + win4_1.xsize (grid4.coords t4_9) 1
                  rw [show win4_1.index t4_9 1 * win4_1.size 1 = 0 from by decide +kernel, show win4_1.xsize (grid4.coords t4_9) 1 = 128 from by decide +kernel]; omega⟩

/-- The second output's array after the run: the column sums of the input's squares. -/
theorem stats4_sumsq (c : Dev nD) : ((dat4 (F := Ideal) V c).arrAt 2 cfg4.N : S1x128.Idx → EReal)
    = fun y => colSum (fun n j => inp4 V c (ix2 n j) * inp4 V c (ix2 n j)) (y 1) :=
  (dat4 V c).arrAt_eq_of_cover 2 _ (flushed4_2_eq V c) fun i =>
    ⟨t4_9, (flush4_2 t4_9).mpr rfl, by
      show i ∈ ((View.whole main_v41_1).slice (win4_2.rect t4_9)).set
      rw [View.set_slice_whole, Rect.mem_set_unit]
      intro a
      have h0 : (i 0 : Nat) < 1 := (i 0).isLt
      have h1 : (i 1 : Nat) < 128 := (i 1).isLt
      match a with
      | ⟨0, _⟩ => show win4_2.index t4_9 0 * win4_2.size 0 ≤ (i 0 : Nat) ∧ (i 0 : Nat) < win4_2.index t4_9 0 * win4_2.size 0 + win4_2.xsize (grid4.coords t4_9) 0
                  rw [show win4_2.index t4_9 0 * win4_2.size 0 = 0 from by decide +kernel, show win4_2.xsize (grid4.coords t4_9) 0 = 1 from by decide +kernel]; omega
      | ⟨1, _⟩ => show win4_2.index t4_9 1 * win4_2.size 1 ≤ (i 1 : Nat) ∧ (i 1 : Nat) < win4_2.index t4_9 1 * win4_2.size 1 + win4_2.xsize (grid4.coords t4_9) 1
                  rw [show win4_2.index t4_9 1 * win4_2.size 1 = 0 from by decide +kernel, show win4_2.xsize (grid4.coords t4_9) 1 = 128 from by decide +kernel]; omega⟩

/-- The same, for the input array known as a function x. -/
theorem stats4_sum_of_eq (c : Dev nD) (x : S50000x128.Idx → EReal) (hx : (V c main_v40 : S50000x128.Idx → EReal) = x) :
    ((dat4 (F := Ideal) V c).arrAt 1 cfg4.N : S1x128.Idx → EReal) = fun y => colSum (fun n j => x (ix2 n j)) (y 1) := by
  subst hx; exact stats4_sum V c

theorem stats4_sumsq_of_eq (c : Dev nD) (x : S50000x128.Idx → EReal) (hx : (V c main_v40 : S50000x128.Idx → EReal) = x) :
    ((dat4 (F := Ideal) V c).arrAt 2 cfg4.N : S1x128.Idx → EReal) = fun y => colSum (fun n j => x (ix2 n j) * x (ix2 n j)) (y 1) := by
  subst hx; exact stats4_sumsq V c

end Region4

end Cert.KernelIdeal.RegionStats

end
-- ==== Proof.RegionApply.lean ====
/-
  Regions 2 and 5 of the program centre, scale and shift a 50000 × 128 array column by column:
    out[n, j] = (h[n, j] − μ[j]) · s[j] · γ[j] + β[j],
  with μ, s, γ, β rows of 128 entries. Each region runs over ten grid points; point t reads rows 5000 t … 5000 t + 4999
  of h and the four whole rows, and writes back the same rows of the output. Here the output array after a region's run
  is read as ONE function of the arrays the region finds: one entry of the block arithmetic; each window's block as
  entries of its array; what a point writes back as its block of the whole-array function; the ten blocks cover the
  array (row r lies in the block of point r / 5000); hence the array.
-/
import proofs.«101512_j37709812859563_1_alg».proof.Proof.KernelIdealFrame
import proofs.«101512_j37709812859563_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionApply

open Idealize.ShloMosaic Idealize.ShloMosaic.TcCoe Idealize.SL.Sem Idealize.ShloMosaic.ValueIdx
open Cert.KernelIdeal Cert.KernelIdeal.Gen Cert.KernelIdeal.GenP Cert.GinSpec
open Idealize.ShloMosaic.Pipeline (Dat)

variable (V : (c : Dev nD) → (b : Ref sig .tc) → Buf (Elt Ideal) ((c : Thread nD τ).loc b))

/-- The block offsets of a whole-block access, as the constant zero function. -/
theorem zero_offsets : (![0, 0] : Fin 2 → Nat) = fun _ => 0 := funext fun a => by fin_cases a <;> rfl

/-- The centred, scaled and shifted array at one entry, its column named as a literal coordinate. -/
theorem normed_at (A : S50000x128.Idx → EReal) (M S G B : S1x128.Idx → EReal) (i : S50000x128.Idx) (j : Fin 128)
    (hj : (i 1).val = j.val) :
    normed (fun n j => A (ix2 n j)) (fun j => M (ix2 0 j)) (fun j => S (ix2 0 j)) (fun j => G (ix2 0 j)) (fun j => B (ix2 0 j)) i
      = (A i - M (ix2 0 j)) * S (ix2 0 j) * G (ix2 0 j) + B (ix2 0 j) := by
  have e : i 1 = j := Fin.ext hj
  subst e
  have hi : A (ix2 (i 0) (i 1)) = A i := congrArg A (eq_ix2 i).symm
  show (A (ix2 (i 0) (i 1)) - M (ix2 0 (i 1))) * S (ix2 0 (i 1)) * G (ix2 0 (i 1)) + B (ix2 0 (i 1)) = _
  rw [hi]

/-! ## Region 2 -/

/-- One entry of the block arithmetic of region 2. -/
theorem pay2_apply (x0 : Vec Ideal S5000x128 .f32) (x1 x2 x3 x4 : Vec Ideal S1x128 .f32) (y : S5000x128.Idx) (k : S1x128.Idx)
    (hk0 : (k 0).val = 0) (hk1 : (k 1).val = (y 1).val) :
    k2_pay1 x0 x1 x2 x3 x4 y = (x0 y - x1 k) * x2 k * x3 k + x4 k := by
  have hb : ∀ a : Fin S1x128.rank, (k a).val = if S1x128.size a = 1 then 0 else (y ⟨a.val + (S5000x128.rank - S1x128.rank), by have := a.isLt; omega⟩).val := by
    intro a
    match a with
    | ⟨0, _⟩ => exact hk0
    | ⟨1, _⟩ => exact hk1
  unfold k2_pay1
  simp only [shapeCast_self]
  rw [addf_apply, mulf_apply, mulf_apply, subf_apply]
  rw [broadcastTo_apply x1 _ y k hb, broadcastTo_apply x2 _ y k hb, broadcastTo_apply x3 _ y k hb, broadcastTo_apply x4 _ y k hb]

/-- The printed index maps of region 2, decided over its ten points: the row-block windows sit at block (t, 0), the
    row-vector windows at block (0, 0). -/
theorem idx_facts2 : ∀ t : Fin cfg2.N, win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Entry y of row block t of the first window is entry (5000 t + y₀, y₁) of its array. -/
theorem hblk2_apply (c : Dev nD) (t : Fin cfg2.N) (y : S5000x128.Idx) (i : S50000x128.Idx)
    (hi0 : (i 0).val = 5000 * t.val + (y 0).val) (hi1 : (i 1).val = (y 1).val) :
    (iblk2 V c 0 t : Vec Ideal S5000x128 .f32) y = (V c main_v15 : S50000x128.Idx → EReal) i := by
  obtain ⟨e0, e1, -⟩ := idx_facts2 t
  unfold iblk2
  rw [View.read_apply]
  show V c main_v15 _ = V c main_v15 _
  congr 1
  funext a
  apply Fin.ext
  match a with
  | ⟨0, _⟩ => show win2_0.index t 0 * 5000 + 1 * (y 0).val = (i 0).val; rw [e0, hi0]; omega
  | ⟨1, _⟩ => show win2_0.index t 1 * 128 + 1 * (y 1).val = (i 1).val; rw [e1, hi1]; omega

/-- The mean's window holds the whole row vector at every point. -/
theorem mublk2_apply (c : Dev nD) (t : Fin cfg2.N) (k : S1x128.Idx) :
    (iblk2 V c 1 t : Vec Ideal S1x128 .f32) k = (V c main_v18 : S1x128.Idx → EReal) k := by
  obtain ⟨-, -, -, -, e0, e1, -⟩ := idx_facts2 t
  unfold iblk2
  rw [View.read_apply]
  show V c main_v18 _ = V c main_v18 _
  congr 1
  funext a
  apply Fin.ext
  match a with
  | ⟨0, _⟩ => show win2_1.index t 0 * 1 + 1 * (k 0).val = (k 0).val; rw [e0]; omega
  | ⟨1, _⟩ => show win2_1.index t 1 * 128 + 1 * (k 1).val = (k 1).val; rw [e1]; omega

/-- The scale's window holds the whole row vector at every point. -/
theorem sblk2_apply (c : Dev nD) (t : Fin cfg2.N) (k : S1x128.Idx) :
    (iblk2 V c 2 t : Vec Ideal S1x128 .f32) k = (V c main_v25 : S1x128.Idx → EReal) k := by
  obtain ⟨-, -, -, -, -, -, e0, e1, -⟩ := idx_facts2 t
  unfold iblk2
  rw [View.read_apply]
  show V c main_v25 _ = V c main_v25 _
  congr 1
  funext a
  apply Fin.ext
  match a with
  | ⟨0, _⟩ => show win2_2.index t 0 * 1 + 1 * (k 0).val = (k 0).val; rw [e0]; omega
  | ⟨1, _⟩ => show win2_2.index t 1 * 128 + 1 * (k 1).val = (k 1).val; rw [e1]; omega

/-- The gain's window holds the whole row vector at every point. -/
theorem gblk2_apply (c : Dev nD) (t : Fin cfg2.N) (k : S1x128.Idx) :
    (iblk2 V c 3 t : Vec Ideal S1x128 .f32) k = (V c main_v26 : S1x128.Idx → EReal) k := by
  obtain ⟨-, -, -, -, -, -, -, -, e0, e1, -⟩ := idx_facts2 t
  unfold iblk2
  rw [View.read_apply]
  show V c main_v26 _ = V c main_v26 _
  congr 1
  funext a
  apply Fin.ext
  match a with
  | ⟨0, _⟩ => show win2_3.index t 0 * 1 + 1 * (k 0).val = (k 0).val; rw [e0]; omega
  | ⟨1, _⟩ => show win2_3.index t 1 * 128 + 1 * (k 1).val = (k 1).val; rw [e1]; omega

/-- The shift's window holds the whole row vector at every point. -/
theorem bblk2_apply (c : Dev nD) (t : Fin cfg2.N) (k : S1x128.Idx) :
    (iblk2 V c 4 t : Vec Ideal S1x128 .f32) k = (V c main_v27 : S1x128.Idx → EReal) k := by
  obtain ⟨-, -, -, -, -, -, -, -, -, -, e0, e1⟩ := idx_facts2 t
  unfold iblk2
  rw [View.read_apply]
  show V c main_v27 _ = V c main_v27 _
  congr 1
  funext a
  apply Fin.ext
  match a with
  | ⟨0, _⟩ => show win2_4.index t 0 * 1 + 1 * (k 0).val = (k 0).val; rw [e0]; omega
  | ⟨1, _⟩ => show win2_4.index t 1 * 128 + 1 * (k 1).val = (k 1).val; rw [e1]; omega

/-- What region 2's output array ends holding: the first array centred, scaled and shifted column by column, as one
    function of the arrays the region finds. -/
abbrev applied2 (c : Dev nD) : S50000x128.Idx → EReal :=
  normed (fun n j => (V c main_v15 : S50000x128.Idx → EReal) (ix2 n j)) (fun j => (V c main_v18 : S1x128.Idx → EReal) (ix2 0 j))
    (fun j => (V c main_v25 : S1x128.Idx → EReal) (ix2 0 j)) (fun j => (V c main_v26 : S1x128.Idx → EReal) (ix2 0 j)) (fun j => (V c main_v27 : S1x128.Idx → EReal) (ix2 0 j))

/-- What point t writes back is row block t of that function. -/
theorem flushed2_eq (c : Dev nD) (t : Fin cfg2.N) :
    (dat2 (F := Ideal) V c).flushed 5 t = ((cfg2.win 5).blk t).view.read (Elt Ideal) (applied2 V c) := by
  show (cfg2.win 5).cut (grid2.coords t) ((dat2 V c).after 5 t) = _
  rw [after2_5]
  unfold out2_5
  rw [View.canon_unit_zero zero_offsets]
  simp only [View.ld_unit_zero (S := S5000x128) zero_offsets, View.ld_unit_zero (S := S1x128) zero_offsets]
  obtain ⟨-, -, e0, e1, -⟩ := idx_facts2 t
  funext y
  show k2_pay1 (iblk2 V c 0 t) (iblk2 V c 1 t) (iblk2 V c 2 t) (iblk2 V c 3 t) (iblk2 V c 4 t) y = applied2 V c (((cfg2.win 5).blk t).view.emb y)
  have hy0 : (y 0).val < 5000 := (y 0).isLt
  have hy1 : (y 1).val < 128 := (y 1).isLt
  have hr : ((((cfg2.win 5).blk t).view.emb y : S50000x128.Idx) 0).val = 5000 * t.val + (y 0).val := by
    show win2_5.index t 0 * 5000 + 1 * (y 0).val = _; rw [e0]; omega
  have hc : ((((cfg2.win 5).blk t).view.emb y : S50000x128.Idx) 1).val = (y 1).val := by
    show win2_5.index t 1 * 128 + 1 * (y 1).val = _; rw [e1]; omega
  refine (pay2_apply _ _ _ _ _ y (ix2 0 ⟨(y 1).val, hy1⟩) rfl rfl).trans ?_
  rw [hblk2_apply V c t y _ hr hc, mublk2_apply, sblk2_apply, gblk2_apply, bblk2_apply]
  exact (normed_at (V c main_v15) (V c main_v18) (V c main_v25) (V c main_v26) (V c main_v27) _ ⟨(y 1).val, hy1⟩ hc).symm

/-- An index of the output array is in point t's block iff each coordinate is in the block's range on its axis. -/
theorem mem_blk2 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v28).slice (win2_5.rect t)).set ↔ _
  rw [View.set_slice_whole, Rect.mem_set_unit]
  exact Iff.rfl

/-- Every row of the output array lies in the block of the point numbered by the row divided by 5000. -/
theorem cover2 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  refine ⟨⟨(i 0).val / 5000, by rw [hN]; omega⟩, flush2_5 _, ?_⟩
  rw [mem_blk2]
  obtain ⟨-, -, e0, e1, -⟩ := idx_facts2 ⟨(i 0).val / 5000, by rw [hN]; omega⟩
  intro a
  match a with
  | ⟨0, _⟩ =>
    show win2_5.index _ (0 : Fin 2) * 5000 ≤ (i 0).val ∧ (i 0).val < win2_5.index _ (0 : Fin 2) * 5000 + 5000
    rw [e0]; show (i 0).val / 5000 * 5000 ≤ (i 0).val ∧ (i 0).val < (i 0).val / 5000 * 5000 + 5000; omega
  | ⟨1, _⟩ =>
    show win2_5.index _ (1 : Fin 2) * 128 ≤ (i 1).val ∧ (i 1).val < win2_5.index _ (1 : Fin 2) * 128 + 128
    rw [e1]; omega

/-- After region 2's run its output array is the first array centred, scaled and shifted column by column. -/
theorem apply2 (c : Dev nD) : ((dat2 (F := Ideal) V c).arrAt 5 cfg2.N : S50000x128.Idx → EReal)
    = normed (fun n j => (V c main_v15 : S50000x128.Idx → EReal) (ix2 n j)) (fun j => (V c main_v18 : S1x128.Idx → EReal) (ix2 0 j))
        (fun j => (V c main_v25 : S1x128.Idx → EReal) (ix2 0 j)) (fun j => (V c main_v26 : S1x128.Idx → EReal) (ix2 0 j)) (fun j => (V c main_v27 : S1x128.Idx → EReal) (ix2 0 j)) :=
  (dat2 (F := Ideal) V c).arrAt_eq_of_cover 5 (applied2 V c) (fun t _ => flushed2_eq V c t) cover2

/-! ## Region 5: the same arithmetic over the second layer's arrays -/

/-- One entry of the block arithmetic of region 5. -/
theorem pay5_apply (x0 : Vec Ideal S5000x128 .f32) (x1 x2 x3 x4 : Vec Ideal S1x128 .f32) (y : S5000x128.Idx) (k : S1x128.Idx)
    (hk0 : (k 0).val = 0) (hk1 : (k 1).val = (y 1).val) :
    k5_pay1 x0 x1 x2 x3 x4 y = (x0 y - x1 k) * x2 k * x3 k + x4 k := by
  have hb : ∀ a : Fin S1x128.rank, (k a).val = if S1x128.size a = 1 then 0 else (y ⟨a.val + (S5000x128.rank - S1x128.rank), by have := a.isLt; omega⟩).val := by
    intro a
    match a with
    | ⟨0, _⟩ => exact hk0
    | ⟨1, _⟩ => exact hk1
  unfold k5_pay1
  simp only [shapeCast_self]
  rw [addf_apply, mulf_apply, mulf_apply, subf_apply]
  rw [broadcastTo_apply x1 _ y k hb, broadcastTo_apply x2 _ y k hb, broadcastTo_apply x3 _ y k hb, broadcastTo_apply x4 _ y k hb]

/-- The printed index maps of region 5, decided over its ten points: the row-block windows sit at block (t, 0), the
    row-vector windows at block (0, 0). -/
theorem idx_facts5 : ∀ t : Fin cfg5.N, win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- Entry y of row block t of the first window is entry (5000 t + y₀, y₁) of its array. -/
theorem hblk5_apply (c : Dev nD) (t : Fin cfg5.N) (y : S5000x128.Idx) (i : S50000x128.Idx)
    (hi0 : (i 0).val = 5000 * t.val + (y 0).val) (hi1 : (i 1).val = (y 1).val) :
    (iblk5 V c 0 t : Vec Ideal S5000x128 .f32) y = (V c main_v40 : S50000x128.Idx → EReal) i := by
  obtain ⟨e0, e1, -⟩ := idx_facts5 t
  unfold iblk5
  rw [View.read_apply]
  show V c main_v40 _ = V c main_v40 _
  congr 1
  funext a
  apply Fin.ext
  match a with
  | ⟨0, _⟩ => show win5_0.index t 0 * 5000 + 1 * (y 0).val = (i 0).val; rw [e0, hi0]; omega
  | ⟨1, _⟩ => show win5_0.index t 1 * 128 + 1 * (y 1).val = (i 1).val; rw [e1, hi1]; omega

/-- The mean's window holds the whole row vector at every point. -/
theorem mublk5_apply (c : Dev nD) (t : Fin cfg5.N) (k : S1x128.Idx) :
    (iblk5 V c 1 t : Vec Ideal S1x128 .f32) k = (V c main_v43 : S1x128.Idx → EReal) k := by
  obtain ⟨-, -, -, -, e0, e1, -⟩ := idx_facts5 t
  unfold iblk5
  rw [View.read_apply]
  show V c main_v43 _ = V c main_v43 _
  congr 1
  funext a
  apply Fin.ext
  match a with
  | ⟨0, _⟩ => show win5_1.index t 0 * 1 + 1 * (k 0).val = (k 0).val; rw [e0]; omega
  | ⟨1, _⟩ => show win5_1.index t 1 * 128 + 1 * (k 1).val = (k 1).val; rw [e1]; omega

/-- The scale's window holds the whole row vector at every point. -/
theorem sblk5_apply (c : Dev nD) (t : Fin cfg5.N) (k : S1x128.Idx) :
    (iblk5 V c 2 t : Vec Ideal S1x128 .f32) k = (V c main_v50 : S1x128.Idx → EReal) k := by
  obtain ⟨-, -, -, -, -, -, e0, e1, -⟩ := idx_facts5 t
  unfold iblk5
  rw [View.read_apply]
  show V c main_v50 _ = V c main_v50 _
  congr 1
  funext a
  apply Fin.ext
  match a with
  | ⟨0, _⟩ => show win5_2.index t 0 * 1 + 1 * (k 0).val = (k 0).val; rw [e0]; omega
  | ⟨1, _⟩ => show win5_2.index t 1 * 128 + 1 * (k 1).val = (k 1).val; rw [e1]; omega

/-- The gain's window holds the whole row vector at every point. -/
theorem gblk5_apply (c : Dev nD) (t : Fin cfg5.N) (k : S1x128.Idx) :
    (iblk5 V c 3 t : Vec Ideal S1x128 .f32) k = (V c main_v51 : S1x128.Idx → EReal) k := by
  obtain ⟨-, -, -, -, -, -, -, -, e0, e1, -⟩ := idx_facts5 t
  unfold iblk5
  rw [View.read_apply]
  show V c main_v51 _ = V c main_v51 _
  congr 1
  funext a
  apply Fin.ext
  match a with
  | ⟨0, _⟩ => show win5_3.index t 0 * 1 + 1 * (k 0).val = (k 0).val; rw [e0]; omega
  | ⟨1, _⟩ => show win5_3.index t 1 * 128 + 1 * (k 1).val = (k 1).val; rw [e1]; omega

/-- The shift's window holds the whole row vector at every point. -/
theorem bblk5_apply (c : Dev nD) (t : Fin cfg5.N) (k : S1x128.Idx) :
    (iblk5 V c 4 t : Vec Ideal S1x128 .f32) k = (V c main_v52 : S1x128.Idx → EReal) k := by
  obtain ⟨-, -, -, -, -, -, -, -, -, -, e0, e1⟩ := idx_facts5 t
  unfold iblk5
  rw [View.read_apply]
  show V c main_v52 _ = V c main_v52 _
  congr 1
  funext a
  apply Fin.ext
  match a with
  | ⟨0, _⟩ => show win5_4.index t 0 * 1 + 1 * (k 0).val = (k 0).val; rw [e0]; omega
  | ⟨1, _⟩ => show win5_4.index t 1 * 128 + 1 * (k 1).val = (k 1).val; rw [e1]; omega

/-- What region 5's output array ends holding: the first array centred, scaled and shifted column by column, as one
    function of the arrays the region finds. -/
abbrev applied5 (c : Dev nD) : S50000x128.Idx → EReal :=
  normed (fun n j => (V c main_v40 : S50000x128.Idx → EReal) (ix2 n j)) (fun j => (V c main_v43 : S1x128.Idx → EReal) (ix2 0 j))
    (fun j => (V c main_v50 : S1x128.Idx → EReal) (ix2 0 j)) (fun j => (V c main_v51 : S1x128.Idx → EReal) (ix2 0 j)) (fun j => (V c main_v52 : S1x128.Idx → EReal) (ix2 0 j))

/-- What point t writes back is row block t of that function. -/
theorem flushed5_eq (c : Dev nD) (t : Fin cfg5.N) :
    (dat5 (F := Ideal) V c).flushed 5 t = ((cfg5.win 5).blk t).view.read (Elt Ideal) (applied5 V c) := by
  show (cfg5.win 5).cut (grid5.coords t) ((dat5 V c).after 5 t) = _
  rw [after5_5]
  unfold out5_5
  rw [View.canon_unit_zero zero_offsets]
  simp only [View.ld_unit_zero (S := S5000x128) zero_offsets, View.ld_unit_zero (S := S1x128) zero_offsets]
  obtain ⟨-, -, e0, e1, -⟩ := idx_facts5 t
  funext y
  show k5_pay1 (iblk5 V c 0 t) (iblk5 V c 1 t) (iblk5 V c 2 t) (iblk5 V c 3 t) (iblk5 V c 4 t) y = applied5 V c (((cfg5.win 5).blk t).view.emb y)
  have hy0 : (y 0).val < 5000 := (y 0).isLt
  have hy1 : (y 1).val < 128 := (y 1).isLt
  have hr : ((((cfg5.win 5).blk t).view.emb y : S50000x128.Idx) 0).val = 5000 * t.val + (y 0).val := by
    show win5_5.index t 0 * 5000 + 1 * (y 0).val = _; rw [e0]; omega
  have hc : ((((cfg5.win 5).blk t).view.emb y : S50000x128.Idx) 1).val = (y 1).val := by
    show win5_5.index t 1 * 128 + 1 * (y 1).val = _; rw [e1]; omega
  refine (pay5_apply _ _ _ _ _ y (ix2 0 ⟨(y 1).val, hy1⟩) rfl rfl).trans ?_
  rw [hblk5_apply V c t y _ hr hc, mublk5_apply, sblk5_apply, gblk5_apply, bblk5_apply]
  exact (normed_at (V c main_v40) (V c main_v43) (V c main_v50) (V c main_v51) (V c main_v52) _ ⟨(y 1).val, hy1⟩ hc).symm

/-- An index of the output array is in point t's block iff each coordinate is in the block's range on its axis. -/
theorem mem_blk5 (t : Fin cfg5.N) (i : S50000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v53).slice (win5_5.rect t)).set ↔ _
  rw [View.set_slice_whole, Rect.mem_set_unit]
  exact Iff.rfl

/-- Every row of the output array lies in the block of the point numbered by the row divided by 5000. -/
theorem cover5 (i : S50000x128.Idx) :
    ∃ t : Fin cfg5.N, (cfg5.win 5).flush t = true ∧ i ∈ ((cfg5.win 5).blk t).view.set := by
  have hi0 : (i 0).val < 50000 := (i 0).isLt
  have hi1 : (i 1).val < 128 := (i 1).isLt
  have hN : cfg5.N = 10 := N_5
  refine ⟨⟨(i 0).val / 5000, by rw [hN]; omega⟩, flush5_5 _, ?_⟩
  rw [mem_blk5]
  obtain ⟨-, -, e0, e1, -⟩ := idx_facts5 ⟨(i 0).val / 5000, by rw [hN]; omega⟩
  intro a
  match a with
  | ⟨0, _⟩ =>
    show win5_5.index _ (0 : Fin 2) * 5000 ≤ (i 0).val ∧ (i 0).val < win5_5.index _ (0 : Fin 2) * 5000 + 5000
    rw [e0]; show (i 0).val / 5000 * 5000 ≤ (i 0).val ∧ (i 0).val < (i 0).val / 5000 * 5000 + 5000; omega
  | ⟨1, _⟩ =>
    show win5_5.index _ (1 : Fin 2) * 128 ≤ (i 1).val ∧ (i 1).val < win5_5.index _ (1 : Fin 2) * 128 + 128
    rw [e1]; omega

/-- After region 5's run its output array is the first array centred, scaled and shifted column by column. -/
theorem apply5 (c : Dev nD) : ((dat5 (F := Ideal) V c).arrAt 5 cfg5.N : S50000x128.Idx → EReal)
    = normed (fun n j => (V c main_v40 : S50000x128.Idx → EReal) (ix2 n j)) (fun j => (V c main_v43 : S1x128.Idx → EReal) (ix2 0 j))
        (fun j => (V c main_v50 : S1x128.Idx → EReal) (ix2 0 j)) (fun j => (V c main_v51 : S1x128.Idx → EReal) (ix2 0 j)) (fun j => (V c main_v52 : S1x128.Idx → EReal) (ix2 0 j)) :=
  (dat5 (F := Ideal) V c).arrAt_eq_of_cover 5 (applied5 V c) (fun t _ => flushed5_eq V c t) cover5

end Cert.KernelIdeal.RegionApply

end
-- ==== Proof.HostStretch.lean ====
/-
  The four stretches of tensor operations between the six regions, read at an arbitrary entry valuation `W`:
  what each stretch leaves at every buffer a later region or stretch reads, and that the buffers it does not
  write are kept.

  Stretch 0 cuts the edge list into source ids (row 0) and destination ids (row 1), forms the neighbourhood sum
  of the input rows (rows gathered at the wrapped source ids, added into zeros at the destination ids) and lays
  the first bias out as a row. Stretches 2 and 5 turn the two column sums s0, s1 of a layer into the mean
  s0 / N and the inverse deviation ((s1 / N − (s0 / N) · (s0 / N)) + ε)^(−1/2), and lay γ and β out as rows.
  Stretch 3 forms the neighbourhood sum of the first layer's output and lays the second bias out as a row.
-/
import proofs.«101512_j37709812859563_1_alg».proof.Proof.KernelIdealLaunch
import proofs.«101512_j37709812859563_1_alg».proof.Proof.Spec
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.HostStretch

open Idealize.ShloMosaic Idealize.ShloMosaic.TcCoe Idealize.SL.Sem Idealize.ShloMosaic.StableHlo Idealize.ShloMosaic.ValueIdx Cert.KernelIdeal Cert.KernelIdeal.Gen Cert.KernelIdeal.GenP Cert.GinSpec

variable (W : Valuation τ sig (Elt Ideal))

/-! ## The edge list's two rows -/

/-- row 0 of the edge list (the source ids) as a vector -/
def edgeRow0 (e : S2x800000.Idx → BitVec 32) : S800000.Idx → BitVec 32 :=
  shapeCast S800000 (extractStridedSlice S1x800000 ![0, 0] e slices_S2x800000_S1x800000_0_0) shapeCasts_S1x800000_S800000

/-- row 1 of the edge list (the destination ids) as a vector -/
def edgeRow1 (e : S2x800000.Idx → BitVec 32) : S800000.Idx → BitVec 32 :=
  shapeCast S800000 (extractStridedSlice S1x800000 ![1, 0] e slices_S2x800000_S1x800000_1_0) shapeCasts_S1x800000_S800000

theorem edgeRow0_apply (e : S2x800000.Idx → BitVec 32) (k : Fin 800000) : edgeRow0 e (ix1 k) = e (ix2 (0 : Fin 2) k) := by
  unfold edgeRow0
  rw [shapeCast_1a_a_apply]
  exact extractStridedSlice_apply _ _ _ _ _ (fun a => by
    match a with
    | ⟨0, _⟩ => rfl
    | ⟨1, _⟩ => exact (Nat.zero_add _).symm)

theorem edgeRow1_apply (e : S2x800000.Idx → BitVec 32) (k : Fin 800000) : edgeRow1 e (ix1 k) = e (ix2 (1 : Fin 2) k) := by
  unfold edgeRow1
  rw [shapeCast_1a_a_apply]
  exact extractStridedSlice_apply _ _ _ _ _ (fun a => by
    match a with
    | ⟨0, _⟩ => rfl
    | ⟨1, _⟩ => exact (Nat.zero_add _).symm)

/-! ## The neighbourhood sum -/

/-- source ids with negative ones wrapped by +50000, as a column -/
def srcCol (v1 : S800000.Idx → BitVec 32) : S800000x1.Idx → BitVec 32 :=
  broadcastInDim S800000x1 ![0] bcast_S800000_S800000x1_0
    (select (cmpi .slt v1 (broadcastInDim S800000 ![] bcast_S_S800000 (constantI S_ 32 0#32)))
      (addi v1 (broadcastInDim S800000 ![] bcast_S_S800000 (constantI S_ 32 50000#32))) v1)

/-- the neighbourhood sum: rows of `y` gathered at the source ids, added into zeros at the destination ids -/
def aggOf (v1 v3 : S800000.Idx → BitVec 32) (y : S50000x128.Idx → EReal) : S50000x128.Idx → EReal :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 v3)
    (Host.gather gather_S50000x128_S800000x1_S800000x128_1_0_n_n_0_1_1128 y (srcCol v1))

/-! ## Before region 0 -/

theorem host0_v1 : (StableHlo.after (hostOps0 (F := Ideal)) W (Proc.devRef .tc main_v1) : S800000.Idx → BitVec 32)
    = edgeRow0 (W (Proc.devRef .tc main_arg1)) := by
  show StableHlo.after (hostOps0 (F := Ideal)) W (Proc.devRef .tc main_v1) = _
  after_results <;> rfl

theorem host0_v3 : (StableHlo.after (hostOps0 (F := Ideal)) W (Proc.devRef .tc main_v3) : S800000.Idx → BitVec 32)
    = edgeRow1 (W (Proc.devRef .tc main_arg1)) := by
  show StableHlo.after (hostOps0 (F := Ideal)) W (Proc.devRef .tc main_v3) = _
  after_results <;> rfl

theorem host0_v13 : (StableHlo.after (hostOps0 (F := Ideal)) W (Proc.devRef .tc main_v13) : S50000x128.Idx → EReal)
    = aggOf (StableHlo.after (hostOps0 (F := Ideal)) W (Proc.devRef .tc main_v1))
        (StableHlo.after (hostOps0 (F := Ideal)) W (Proc.devRef .tc main_v3)) (W (Proc.devRef .tc main_arg0)) := by
  rw [host0_v1, host0_v3]
  show StableHlo.after (hostOps0 (F := Ideal)) W (Proc.devRef .tc main_v13) = _
  after_results <;> rfl

theorem host0_v14_apply (j : Fin 128) :
    (StableHlo.after (hostOps0 (F := Ideal)) W (Proc.devRef .tc main_v14) : S1x128.Idx → EReal) (ix2 (0 : Fin 1) j)
      = (W (Proc.devRef .tc main_arg3) : S128.Idx → EReal) (ix1 j) := by
  show StableHlo.after (hostOps0 (F := Ideal)) W (Proc.devRef .tc main_v14) (ix2 (0 : Fin 1) j) = _
  after_results
  exact shapeCast_a_1a_apply _ _ _ _

/-- a buffer the first stretch does not write is kept -/
theorem host0_keep (b : Ref sig .tc)
    (hb : ∀ y ∈ ([main_v0, main_v1, main_v2, main_v3, main_c, main_v4, main_v5, main_c_0, main_v6, main_v7, main_v8, main_v9, main_v10, main_cst, main_v11, main_v12, main_v13, main_v14] : List (Ref sig .tc)), b ≠ y) :
    StableHlo.after (hostOps0 (F := Ideal)) W (Proc.devRef .tc b) = W (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by repeat (first | exact List.mem_cons_self | apply List.mem_cons_of_mem)))))
theorem host0_keep_main_arg0 : StableHlo.after (hostOps0 (F := Ideal)) W (Proc.devRef .tc main_arg0) = W (Proc.devRef .tc main_arg0) := host0_keep W main_arg0 (by decide)
theorem host0_keep_main_arg2 : StableHlo.after (hostOps0 (F := Ideal)) W (Proc.devRef .tc main_arg2) = W (Proc.devRef .tc main_arg2) := host0_keep W main_arg2 (by decide)
theorem host0_keep_main_arg3 : StableHlo.after (hostOps0 (F := Ideal)) W (Proc.devRef .tc main_arg3) = W (Proc.devRef .tc main_arg3) := host0_keep W main_arg3 (by decide)
theorem host0_keep_main_arg4 : StableHlo.after (hostOps0 (F := Ideal)) W (Proc.devRef .tc main_arg4) = W (Proc.devRef .tc main_arg4) := host0_keep W main_arg4 (by decide)
theorem host0_keep_main_arg5 : StableHlo.after (hostOps0 (F := Ideal)) W (Proc.devRef .tc main_arg5) = W (Proc.devRef .tc main_arg5) := host0_keep W main_arg5 (by decide)
theorem host0_keep_main_arg6 : StableHlo.after (hostOps0 (F := Ideal)) W (Proc.devRef .tc main_arg6) = W (Proc.devRef .tc main_arg6) := host0_keep W main_arg6 (by decide)
theorem host0_keep_main_arg7 : StableHlo.after (hostOps0 (F := Ideal)) W (Proc.devRef .tc main_arg7) = W (Proc.devRef .tc main_arg7) := host0_keep W main_arg7 (by decide)
theorem host0_keep_main_arg8 : StableHlo.after (hostOps0 (F := Ideal)) W (Proc.devRef .tc main_arg8) = W (Proc.devRef .tc main_arg8) := host0_keep W main_arg8 (by decide)
theorem host0_keep_main_arg9 : StableHlo.after (hostOps0 (F := Ideal)) W (Proc.devRef .tc main_arg9) = W (Proc.devRef .tc main_arg9) := host0_keep W main_arg9 (by decide)

/-! ## Between regions 1 and 2: the column statistics of the first layer -/

theorem host2_v18_apply (j : Fin 128) :
    (StableHlo.after (hostOps2 (F := Ideal)) W (Proc.devRef .tc main_v18) : S1x128.Idx → EReal) (ix2 (0 : Fin 1) j)
      = Ideal.div ((W (Proc.devRef .tc main_v16_0) : S1x128.Idx → EReal) (ix2 (0 : Fin 1) j)) nF := by
  show StableHlo.after (hostOps2 (F := Ideal)) W (Proc.devRef .tc main_v18) (ix2 (0 : Fin 1) j) = _
  after_results <;> rfl

theorem host2_v25_apply (j : Fin 128) :
    (StableHlo.after (hostOps2 (F := Ideal)) W (Proc.devRef .tc main_v25) : S1x128.Idx → EReal) (ix2 (0 : Fin 1) j)
      = Ideal.rsqrt ((Ideal.div ((W (Proc.devRef .tc main_v16_1) : S1x128.Idx → EReal) (ix2 (0 : Fin 1) j)) nF
          - Ideal.div ((W (Proc.devRef .tc main_v16_0) : S1x128.Idx → EReal) (ix2 (0 : Fin 1) j)) nF
            * Ideal.div ((W (Proc.devRef .tc main_v16_0) : S1x128.Idx → EReal) (ix2 (0 : Fin 1) j)) nF) + epsF) := by
  show StableHlo.after (hostOps2 (F := Ideal)) W (Proc.devRef .tc main_v25) (ix2 (0 : Fin 1) j) = _
  after_results <;> rfl

theorem host2_v26_apply (j : Fin 128) :
    (StableHlo.after (hostOps2 (F := Ideal)) W (Proc.devRef .tc main_v26) : S1x128.Idx → EReal) (ix2 (0 : Fin 1) j)
      = (W (Proc.devRef .tc main_arg6) : S128.Idx → EReal) (ix1 j) := by
  show StableHlo.after (hostOps2 (F := Ideal)) W (Proc.devRef .tc main_v26) (ix2 (0 : Fin 1) j) = _
  after_results
  exact shapeCast_a_1a_apply _ _ _ _

theorem host2_v27_apply (j : Fin 128) :
    (StableHlo.after (hostOps2 (F := Ideal)) W (Proc.devRef .tc main_v27) : S1x128.Idx → EReal) (ix2 (0 : Fin 1) j)
      = (W (Proc.devRef .tc main_arg7) : S128.Idx → EReal) (ix1 j) := by
  show StableHlo.after (hostOps2 (F := Ideal)) W (Proc.devRef .tc main_v27) (ix2 (0 : Fin 1) j) = _
  after_results
  exact shapeCast_a_1a_apply _ _ _ _

/-- a buffer the second stretch does not write is kept -/
theorem host2_keep (b : Ref sig .tc)
    (hb : ∀ y ∈ ([main_cst_1, main_v17, main_v18, main_cst_2, main_v19, main_v20, main_v21, main_v22, main_cst_3, main_v23, main_v24, main_v25, main_v26, main_v27] : List (Ref sig .tc)), b ≠ y) :
    StableHlo.after (hostOps2 (F := Ideal)) W (Proc.devRef .tc b) = W (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by repeat (first | exact List.mem_cons_self | apply List.mem_cons_of_mem)))))
theorem host2_keep_main_v15 : StableHlo.after (hostOps2 (F := Ideal)) W (Proc.devRef .tc main_v15) = W (Proc.devRef .tc main_v15) := host2_keep W main_v15 (by decide)
theorem host2_keep_main_v1 : StableHlo.after (hostOps2 (F := Ideal)) W (Proc.devRef .tc main_v1) = W (Proc.devRef .tc main_v1) := host2_keep W main_v1 (by decide)
theorem host2_keep_main_v3 : StableHlo.after (hostOps2 (F := Ideal)) W (Proc.devRef .tc main_v3) = W (Proc.devRef .tc main_v3) := host2_keep W main_v3 (by decide)
theorem host2_keep_main_arg0 : StableHlo.after (hostOps2 (F := Ideal)) W (Proc.devRef .tc main_arg0) = W (Proc.devRef .tc main_arg0) := host2_keep W main_arg0 (by decide)
theorem host2_keep_main_arg1 : StableHlo.after (hostOps2 (F := Ideal)) W (Proc.devRef .tc main_arg1) = W (Proc.devRef .tc main_arg1) := host2_keep W main_arg1 (by decide)
theorem host2_keep_main_arg2 : StableHlo.after (hostOps2 (F := Ideal)) W (Proc.devRef .tc main_arg2) = W (Proc.devRef .tc main_arg2) := host2_keep W main_arg2 (by decide)
theorem host2_keep_main_arg3 : StableHlo.after (hostOps2 (F := Ideal)) W (Proc.devRef .tc main_arg3) = W (Proc.devRef .tc main_arg3) := host2_keep W main_arg3 (by decide)
theorem host2_keep_main_arg4 : StableHlo.after (hostOps2 (F := Ideal)) W (Proc.devRef .tc main_arg4) = W (Proc.devRef .tc main_arg4) := host2_keep W main_arg4 (by decide)
theorem host2_keep_main_arg5 : StableHlo.after (hostOps2 (F := Ideal)) W (Proc.devRef .tc main_arg5) = W (Proc.devRef .tc main_arg5) := host2_keep W main_arg5 (by decide)
theorem host2_keep_main_arg6 : StableHlo.after (hostOps2 (F := Ideal)) W (Proc.devRef .tc main_arg6) = W (Proc.devRef .tc main_arg6) := host2_keep W main_arg6 (by decide)
theorem host2_keep_main_arg7 : StableHlo.after (hostOps2 (F := Ideal)) W (Proc.devRef .tc main_arg7) = W (Proc.devRef .tc main_arg7) := host2_keep W main_arg7 (by decide)
theorem host2_keep_main_arg8 : StableHlo.after (hostOps2 (F := Ideal)) W (Proc.devRef .tc main_arg8) = W (Proc.devRef .tc main_arg8) := host2_keep W main_arg8 (by decide)
theorem host2_keep_main_arg9 : StableHlo.after (hostOps2 (F := Ideal)) W (Proc.devRef .tc main_arg9) = W (Proc.devRef .tc main_arg9) := host2_keep W main_arg9 (by decide)

/-! ## Between regions 2 and 3: the neighbourhood sum of the first layer's output -/

theorem host3_v38 : (StableHlo.after (hostOps3 (F := Ideal)) W (Proc.devRef .tc main_v38) : S50000x128.Idx → EReal)
    = aggOf (W (Proc.devRef .tc main_v1)) (W (Proc.devRef .tc main_v3)) (W (Proc.devRef .tc main_v28)) := by
  show StableHlo.after (hostOps3 (F := Ideal)) W (Proc.devRef .tc main_v38) = _
  after_results <;> rfl

theorem host3_v39_apply (j : Fin 128) :
    (StableHlo.after (hostOps3 (F := Ideal)) W (Proc.devRef .tc main_v39) : S1x128.Idx → EReal) (ix2 (0 : Fin 1) j)
      = (W (Proc.devRef .tc main_arg5) : S128.Idx → EReal) (ix1 j) := by
  show StableHlo.after (hostOps3 (F := Ideal)) W (Proc.devRef .tc main_v39) (ix2 (0 : Fin 1) j) = _
  after_results
  exact shapeCast_a_1a_apply _ _ _ _

/-- a buffer the third stretch does not write is kept -/
theorem host3_keep (b : Ref sig .tc)
    (hb : ∀ y ∈ ([main_c_4, main_v29, main_v30, main_c_5, main_v31, main_v32, main_v33, main_v34, main_v35, main_cst_6, main_v36, main_v37, main_v38, main_v39] : List (Ref sig .tc)), b ≠ y) :
    StableHlo.after (hostOps3 (F := Ideal)) W (Proc.devRef .tc b) = W (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by repeat (first | exact List.mem_cons_self | apply List.mem_cons_of_mem)))))
theorem host3_keep_main_v28 : StableHlo.after (hostOps3 (F := Ideal)) W (Proc.devRef .tc main_v28) = W (Proc.devRef .tc main_v28) := host3_keep W main_v28 (by decide)
theorem host3_keep_main_v1 : StableHlo.after (hostOps3 (F := Ideal)) W (Proc.devRef .tc main_v1) = W (Proc.devRef .tc main_v1) := host3_keep W main_v1 (by decide)
theorem host3_keep_main_v3 : StableHlo.after (hostOps3 (F := Ideal)) W (Proc.devRef .tc main_v3) = W (Proc.devRef .tc main_v3) := host3_keep W main_v3 (by decide)
theorem host3_keep_main_arg0 : StableHlo.after (hostOps3 (F := Ideal)) W (Proc.devRef .tc main_arg0) = W (Proc.devRef .tc main_arg0) := host3_keep W main_arg0 (by decide)
theorem host3_keep_main_arg1 : StableHlo.after (hostOps3 (F := Ideal)) W (Proc.devRef .tc main_arg1) = W (Proc.devRef .tc main_arg1) := host3_keep W main_arg1 (by decide)
theorem host3_keep_main_arg2 : StableHlo.after (hostOps3 (F := Ideal)) W (Proc.devRef .tc main_arg2) = W (Proc.devRef .tc main_arg2) := host3_keep W main_arg2 (by decide)
theorem host3_keep_main_arg3 : StableHlo.after (hostOps3 (F := Ideal)) W (Proc.devRef .tc main_arg3) = W (Proc.devRef .tc main_arg3) := host3_keep W main_arg3 (by decide)
theorem host3_keep_main_arg4 : StableHlo.after (hostOps3 (F := Ideal)) W (Proc.devRef .tc main_arg4) = W (Proc.devRef .tc main_arg4) := host3_keep W main_arg4 (by decide)
theorem host3_keep_main_arg5 : StableHlo.after (hostOps3 (F := Ideal)) W (Proc.devRef .tc main_arg5) = W (Proc.devRef .tc main_arg5) := host3_keep W main_arg5 (by decide)
theorem host3_keep_main_arg6 : StableHlo.after (hostOps3 (F := Ideal)) W (Proc.devRef .tc main_arg6) = W (Proc.devRef .tc main_arg6) := host3_keep W main_arg6 (by decide)
theorem host3_keep_main_arg7 : StableHlo.after (hostOps3 (F := Ideal)) W (Proc.devRef .tc main_arg7) = W (Proc.devRef .tc main_arg7) := host3_keep W main_arg7 (by decide)
theorem host3_keep_main_arg8 : StableHlo.after (hostOps3 (F := Ideal)) W (Proc.devRef .tc main_arg8) = W (Proc.devRef .tc main_arg8) := host3_keep W main_arg8 (by decide)
theorem host3_keep_main_arg9 : StableHlo.after (hostOps3 (F := Ideal)) W (Proc.devRef .tc main_arg9) = W (Proc.devRef .tc main_arg9) := host3_keep W main_arg9 (by decide)

/-! ## Between regions 4 and 5: the column statistics of the second layer -/

theorem host5_v43_apply (j : Fin 128) :
    (StableHlo.after (hostOps5 (F := Ideal)) W (Proc.devRef .tc main_v43) : S1x128.Idx → EReal) (ix2 (0 : Fin 1) j)
      = Ideal.div ((W (Proc.devRef .tc main_v41_0) : S1x128.Idx → EReal) (ix2 (0 : Fin 1) j)) nF := by
  show StableHlo.after (hostOps5 (F := Ideal)) W (Proc.devRef .tc main_v43) (ix2 (0 : Fin 1) j) = _
  after_results <;> rfl

theorem host5_v50_apply (j : Fin 128) :
    (StableHlo.after (hostOps5 (F := Ideal)) W (Proc.devRef .tc main_v50) : S1x128.Idx → EReal) (ix2 (0 : Fin 1) j)
      = Ideal.rsqrt ((Ideal.div ((W (Proc.devRef .tc main_v41_1) : S1x128.Idx → EReal) (ix2 (0 : Fin 1) j)) nF
          - Ideal.div ((W (Proc.devRef .tc main_v41_0) : S1x128.Idx → EReal) (ix2 (0 : Fin 1) j)) nF
            * Ideal.div ((W (Proc.devRef .tc main_v41_0) : S1x128.Idx → EReal) (ix2 (0 : Fin 1) j)) nF) + epsF) := by
  show StableHlo.after (hostOps5 (F := Ideal)) W (Proc.devRef .tc main_v50) (ix2 (0 : Fin 1) j) = _
  after_results <;> rfl

theorem host5_v51_apply (j : Fin 128) :
    (StableHlo.after (hostOps5 (F := Ideal)) W (Proc.devRef .tc main_v51) : S1x128.Idx → EReal) (ix2 (0 : Fin 1) j)
      = (W (Proc.devRef .tc main_arg8) : S128.Idx → EReal) (ix1 j) := by
  show StableHlo.after (hostOps5 (F := Ideal)) W (Proc.devRef .tc main_v51) (ix2 (0 : Fin 1) j) = _
  after_results
  exact shapeCast_a_1a_apply _ _ _ _

theorem host5_v52_apply (j : Fin 128) :
    (StableHlo.after (hostOps5 (F := Ideal)) W (Proc.devRef .tc main_v52) : S1x128.Idx → EReal) (ix2 (0 : Fin 1) j)
      = (W (Proc.devRef .tc main_arg9) : S128.Idx → EReal) (ix1 j) := by
  show StableHlo.after (hostOps5 (F := Ideal)) W (Proc.devRef .tc main_v52) (ix2 (0 : Fin 1) j) = _
  after_results
  exact shapeCast_a_1a_apply _ _ _ _

/-- a buffer the fourth stretch does not write is kept -/
theorem host5_keep (b : Ref sig .tc)
    (hb : ∀ y ∈ ([main_cst_7, main_v42, main_v43, main_cst_8, main_v44, main_v45, main_v46, main_v47, main_cst_9, main_v48, main_v49, main_v50, main_v51, main_v52] : List (Ref sig .tc)), b ≠ y) :
    StableHlo.after (hostOps5 (F := Ideal)) W (Proc.devRef .tc b) = W (Proc.devRef .tc b) :=
  StableHlo.after_of_forall_not_mem (b := Proc.devRef .tc b) _ _ (List.forall_iff_forall_mem.mp (by
    simp only [hostOps5, List.Forall, StableHlo.nullary_writes, StableHlo.unary_writes, StableHlo.binary_writes,
      StableHlo.ternary_writes, StableHlo.reshape_writes, Finset.mem_singleton]
    repeat' apply And.intro
    all_goals exact StableHlo.devRef_ne_of_ne (hb _ (by repeat (first | exact List.mem_cons_self | apply List.mem_cons_of_mem)))))
theorem host5_keep_main_v40 : StableHlo.after (hostOps5 (F := Ideal)) W (Proc.devRef .tc main_v40) = W (Proc.devRef .tc main_v40) := host5_keep W main_v40 (by decide)
theorem host5_keep_main_arg0 : StableHlo.after (hostOps5 (F := Ideal)) W (Proc.devRef .tc main_arg0) = W (Proc.devRef .tc main_arg0) := host5_keep W main_arg0 (by decide)
theorem host5_keep_main_arg1 : StableHlo.after (hostOps5 (F := Ideal)) W (Proc.devRef .tc main_arg1) = W (Proc.devRef .tc main_arg1) := host5_keep W main_arg1 (by decide)
theorem host5_keep_main_arg2 : StableHlo.after (hostOps5 (F := Ideal)) W (Proc.devRef .tc main_arg2) = W (Proc.devRef .tc main_arg2) := host5_keep W main_arg2 (by decide)
theorem host5_keep_main_arg3 : StableHlo.after (hostOps5 (F := Ideal)) W (Proc.devRef .tc main_arg3) = W (Proc.devRef .tc main_arg3) := host5_keep W main_arg3 (by decide)
theorem host5_keep_main_arg4 : StableHlo.after (hostOps5 (F := Ideal)) W (Proc.devRef .tc main_arg4) = W (Proc.devRef .tc main_arg4) := host5_keep W main_arg4 (by decide)
theorem host5_keep_main_arg5 : StableHlo.after (hostOps5 (F := Ideal)) W (Proc.devRef .tc main_arg5) = W (Proc.devRef .tc main_arg5) := host5_keep W main_arg5 (by decide)
theorem host5_keep_main_arg6 : StableHlo.after (hostOps5 (F := Ideal)) W (Proc.devRef .tc main_arg6) = W (Proc.devRef .tc main_arg6) := host5_keep W main_arg6 (by decide)
theorem host5_keep_main_arg7 : StableHlo.after (hostOps5 (F := Ideal)) W (Proc.devRef .tc main_arg7) = W (Proc.devRef .tc main_arg7) := host5_keep W main_arg7 (by decide)
theorem host5_keep_main_arg8 : StableHlo.after (hostOps5 (F := Ideal)) W (Proc.devRef .tc main_arg8) = W (Proc.devRef .tc main_arg8) := host5_keep W main_arg8 (by decide)
theorem host5_keep_main_arg9 : StableHlo.after (hostOps5 (F := Ideal)) W (Proc.devRef .tc main_arg9) = W (Proc.devRef .tc main_arg9) := host5_keep W main_arg9 (by decide)

end Cert.KernelIdeal.HostStretch
end
-- ==== Proof.KernelLayers.lean ====
/-
  What the idealized kernel program leaves in its result buffer, as a function of the launch contents of its arguments.

  The run walks through ten boundaries. At each, a buffer either was just written — by a host stretch (read off the stretch's
  operations) or as the output array of a region (the region's whole-array value) — or is carried unchanged from the boundary
  before. Following the result buffer back through the boundaries gives, for the first layer,
      z = x + A x,  h = max (z · W₁ + b₁) 0,  μ = colsum h / N,  s = ((colsum h² / N − μ²) + ε)^(−1/2),  y = (h − μ) · s · γ₁ + β₁,
  which is Spec's `layerK` with the neighbourhood sum A, and the same again for the second layer on y.
-/
import proofs.«101512_j37709812859563_1_alg».proof.Proof.KernelIdealRun
import proofs.«101512_j37709812859563_1_alg».proof.Proof.RegionMlp
import proofs.«101512_j37709812859563_1_alg».proof.Proof.RegionStats
import proofs.«101512_j37709812859563_1_alg».proof.Proof.RegionApply
import proofs.«101512_j37709812859563_1_alg».proof.Proof.HostStretch
import proofs.«101512_j37709812859563_1_alg».proof.Proof.Spec

set_option maxRecDepth 16384

noncomputable section

namespace Cert.KernelIdeal.Layers

open Idealize.ShloMosaic Idealize.ShloMosaic.TcCoe Idealize.SL.Sem Idealize.ShloMosaic.ValueIdx
open Cert.KernelIdeal Cert.KernelIdeal.Gen Cert.KernelIdeal.GenP Cert.GinSpec
open Cert.KernelIdeal.HostStretch Cert.KernelIdeal.RegionMlp Cert.KernelIdeal.RegionStats Cert.KernelIdeal.RegionApply
open Idealize.ShloMosaic.Pipeline (Dat)

variable (m : (ℓ : Loc nD τ sig) → Buf (Elt Ideal) ℓ) (ρ : Dev nD → PrngReg) (c : Dev nD)

/-! ## The arguments at launch, typed -/

abbrev xin : S50000x128.Idx → EReal := m ((c.tc : Thread nD τ).loc main_arg0)
abbrev edges : S2x800000.Idx → BitVec 32 := m ((c.tc : Thread nD τ).loc main_arg1)
abbrev wt1 : S128x128.Idx → EReal := m ((c.tc : Thread nD τ).loc main_arg2)
abbrev wt2 : S128x128.Idx → EReal := m ((c.tc : Thread nD τ).loc main_arg4)
abbrev vb1 : Fin 128 → EReal := fun j => (m ((c.tc : Thread nD τ).loc main_arg3) : S128.Idx → EReal) (ix1 j)
abbrev vb2 : Fin 128 → EReal := fun j => (m ((c.tc : Thread nD τ).loc main_arg5) : S128.Idx → EReal) (ix1 j)
abbrev vg1 : Fin 128 → EReal := fun j => (m ((c.tc : Thread nD τ).loc main_arg6) : S128.Idx → EReal) (ix1 j)
abbrev vbe1 : Fin 128 → EReal := fun j => (m ((c.tc : Thread nD τ).loc main_arg7) : S128.Idx → EReal) (ix1 j)
abbrev vg2 : Fin 128 → EReal := fun j => (m ((c.tc : Thread nD τ).loc main_arg8) : S128.Idx → EReal) (ix1 j)
abbrev vbe2 : Fin 128 → EReal := fun j => (m ((c.tc : Thread nD τ).loc main_arg9) : S128.Idx → EReal) (ix1 j)

/-- The neighbourhood sum along the launch's edge list. -/
abbrev agg : (S50000x128.Idx → EReal) → S50000x128.Idx → EReal := aggOf (edgeRow0 (edges m c)) (edgeRow1 (edges m c))

/-- The first layer's hidden activation, and its output. -/
abbrev hid1 : Fin 50000 → Fin 128 → EReal := GinSpec.hidden (fun i => xin m c i + agg m c (xin m c) i) (wt1 m c) (vb1 m c)
abbrev out1 : S50000x128.Idx → EReal := layerK (agg m c) (xin m c) (wt1 m c) (vb1 m c) (vg1 m c) (vbe1 m c)
abbrev hid2 : Fin 50000 → Fin 128 → EReal := GinSpec.hidden (fun i => out1 m c i + agg m c (out1 m c) i) (wt2 m c) (vb2 m c)
abbrev out2 : S50000x128.Idx → EReal := layerK (agg m c) (out1 m c) (wt2 m c) (vb2 m c) (vg2 m c) (vbe2 m c)

/-! ## Region 0's entry (after the first host stretch) -/

theorem v1_arg0 : (V1 m ρ c main_arg0 : S50000x128.Idx → EReal) = xin m c := host0_keep_main_arg0 (W0 m ρ c)
theorem v1_arg2 : (V1 m ρ c main_arg2 : S128x128.Idx → EReal) = wt1 m c := host0_keep_main_arg2 (W0 m ρ c)
theorem w1_v1 : (W1 m ρ c (Proc.devRef .tc main_v1) : S800000.Idx → BitVec 32) = edgeRow0 (edges m c) := host0_v1 (W0 m ρ c)
theorem w1_v3 : (W1 m ρ c (Proc.devRef .tc main_v3) : S800000.Idx → BitVec 32) = edgeRow1 (edges m c) := host0_v3 (W0 m ρ c)
theorem v1_v13 : (V1 m ρ c main_v13 : S50000x128.Idx → EReal) = agg m c (xin m c) := by
  have h := host0_v13 (W0 m ρ c)
  rw [host0_v1, host0_v3] at h
  exact h
theorem v1_v14 (j : Fin 128) : (V1 m ρ c main_v14 : S1x128.Idx → EReal) (ix2 (0 : Fin 1) j) = vb1 m c j := host0_v14_apply (W0 m ρ c) j

/-! ## Region 0's output: the first hidden activation -/

theorem v2_v15 : (V2 m ρ c main_v15 : S50000x128.Idx → EReal) = fun i => hid1 m c (i 0) (i 1) := by
  refine (W2_arr m ρ c 4).trans ((mlp0 (V1 m ρ) c).trans ?_)
  have e0 : feat0 (V1 m ρ) c = xin m c := v1_arg0 m ρ c
  have e1 : nbr0 (V1 m ρ) c = agg m c (xin m c) := v1_v13 m ρ c
  have e2 : wt0 (V1 m ρ) c = wt1 m c := v1_arg2 m ρ c
  have e3 : (fun j => bias0 (V1 m ρ) c (ix2 0 j)) = vb1 m c := funext fun j => v1_v14 m ρ c j
  unfold hid0
  rw [e0, e1, e2, e3]
  rfl

/-! ## Region 1: the column sums of the first hidden activation -/

theorem v3_v15 : (V3 m ρ c main_v15 : S50000x128.Idx → EReal) = fun i => hid1 m c (i 0) (i 1) :=
  ((W3_arr m ρ c 0).trans (((dat1 (V2 m ρ) c).arrAt_in 0 rfl _).trans (A_eq1 (V2 m ρ) c 0))).trans (v2_v15 m ρ c)

theorem w3_sum (j : Fin 128) :
    (W3 m ρ c (Proc.devRef .tc main_v16_0) : S1x128.Idx → EReal) (ix2 (0 : Fin 1) j) = colSum (hid1 m c) j :=
  congrFun ((W3_arr m ρ c 1).trans (stats1_sum_of_eq (V2 m ρ) c _ (v2_v15 m ρ c))) (ix2 (0 : Fin 1) j)

theorem w3_sumsq (j : Fin 128) :
    (W3 m ρ c (Proc.devRef .tc main_v16_1) : S1x128.Idx → EReal) (ix2 (0 : Fin 1) j)
      = colSum (fun n j => hid1 m c n j * hid1 m c n j) j :=
  congrFun ((W3_arr m ρ c 2).trans (stats1_sumsq_of_eq (V2 m ρ) c _ (v2_v15 m ρ c))) (ix2 (0 : Fin 1) j)

/-! ## The arguments the second host stretch reads, carried from the launch -/

theorem w3_arg6 : (W3 m ρ c (Proc.devRef .tc main_arg6) : S128.Idx → EReal) = (m ((c.tc : Thread nD τ).loc main_arg6) : S128.Idx → EReal) :=
  calc (W3 m ρ c (Proc.devRef .tc main_arg6) : S128.Idx → EReal)
    _ = (W2 m ρ c (Proc.devRef .tc main_arg6) : S128.Idx → EReal) := W3_of_ne m ρ c main_arg6 (by decide)
    _ = (W1 m ρ c (Proc.devRef .tc main_arg6) : S128.Idx → EReal) := W2_of_ne m ρ c main_arg6 (by decide)
    _ = (W0 m ρ c (Proc.devRef .tc main_arg6) : S128.Idx → EReal) := host0_keep_main_arg6 (W0 m ρ c)
    _ = (m ((c.tc : Thread nD τ).loc main_arg6) : S128.Idx → EReal) := rfl

theorem w3_arg7 : (W3 m ρ c (Proc.devRef .tc main_arg7) : S128.Idx → EReal) = (m ((c.tc : Thread nD τ).loc main_arg7) : S128.Idx → EReal) :=
  calc (W3 m ρ c (Proc.devRef .tc main_arg7) : S128.Idx → EReal)
    _ = (W2 m ρ c (Proc.devRef .tc main_arg7) : S128.Idx → EReal) := W3_of_ne m ρ c main_arg7 (by decide)
    _ = (W1 m ρ c (Proc.devRef .tc main_arg7) : S128.Idx → EReal) := W2_of_ne m ρ c main_arg7 (by decide)
    _ = (W0 m ρ c (Proc.devRef .tc main_arg7) : S128.Idx → EReal) := host0_keep_main_arg7 (W0 m ρ c)
    _ = (m ((c.tc : Thread nD τ).loc main_arg7) : S128.Idx → EReal) := rfl

/-! ## Region 2's entry (after the second host stretch): mean, inverse deviation, scale and shift as rows -/

theorem v4_v15 : (V4 m ρ c main_v15 : S50000x128.Idx → EReal) = fun i => hid1 m c (i 0) (i 1) :=
  (host2_keep_main_v15 (W3 m ρ c)).trans (v3_v15 m ρ c)

theorem v4_v18 (j : Fin 128) : (V4 m ρ c main_v18 : S1x128.Idx → EReal) (ix2 (0 : Fin 1) j) = mean (hid1 m c) j :=
  (host2_v18_apply (W3 m ρ c) j).trans (by rw [w3_sum m ρ c j]; rfl)

theorem v4_v25 (j : Fin 128) :
    (V4 m ρ c main_v25 : S1x128.Idx → EReal) (ix2 (0 : Fin 1) j) = invStd (varK (hid1 m c)) j :=
  (host2_v25_apply (W3 m ρ c) j).trans (by rw [w3_sum m ρ c j, w3_sumsq m ρ c j]; rfl)

theorem v4_v26 (j : Fin 128) : (V4 m ρ c main_v26 : S1x128.Idx → EReal) (ix2 (0 : Fin 1) j) = vg1 m c j :=
  (host2_v26_apply (W3 m ρ c) j).trans (congrFun (w3_arg6 m ρ c) (ix1 j))

theorem v4_v27 (j : Fin 128) : (V4 m ρ c main_v27 : S1x128.Idx → EReal) (ix2 (0 : Fin 1) j) = vbe1 m c j :=
  (host2_v27_apply (W3 m ρ c) j).trans (congrFun (w3_arg7 m ρ c) (ix1 j))

/-! ## Region 2's output: the first layer -/

theorem w5_v28 : (W5 m ρ c (Proc.devRef .tc main_v28) : S50000x128.Idx → EReal) = out1 m c := by
  refine (W5_arr m ρ c 5).trans ((apply2 (V4 m ρ) c).trans ?_)
  have e0 : (fun n j => (V4 m ρ c main_v15 : S50000x128.Idx → EReal) (ix2 n j)) = hid1 m c :=
    funext fun n => funext fun j => congrFun (v4_v15 m ρ c) (ix2 n j)
  have e1 : (fun j => (V4 m ρ c main_v18 : S1x128.Idx → EReal) (ix2 0 j)) = mean (hid1 m c) := funext (v4_v18 m ρ c)
  have e2 : (fun j => (V4 m ρ c main_v25 : S1x128.Idx → EReal) (ix2 0 j)) = invStd (varK (hid1 m c)) := funext (v4_v25 m ρ c)
  have e3 : (fun j => (V4 m ρ c main_v26 : S1x128.Idx → EReal) (ix2 0 j)) = vg1 m c := funext (v4_v26 m ρ c)
  have e4 : (fun j => (V4 m ρ c main_v27 : S1x128.Idx → EReal) (ix2 0 j)) = vbe1 m c := funext (v4_v27 m ρ c)
  rw [e0, e1, e2, e3, e4]
  rfl

/-! # The second layer -/

/-! ## What the third host stretch reads, carried -/

theorem w5_v1 : (W5 m ρ c (Proc.devRef .tc main_v1) : S800000.Idx → BitVec 32) = edgeRow0 (edges m c) :=
  calc (W5 m ρ c (Proc.devRef .tc main_v1) : S800000.Idx → BitVec 32)
    _ = (W4 m ρ c (Proc.devRef .tc main_v1) : S800000.Idx → BitVec 32) := W5_of_ne m ρ c main_v1 (by decide)
    _ = (W3 m ρ c (Proc.devRef .tc main_v1) : S800000.Idx → BitVec 32) := host2_keep_main_v1 (W3 m ρ c)
    _ = (W2 m ρ c (Proc.devRef .tc main_v1) : S800000.Idx → BitVec 32) := W3_of_ne m ρ c main_v1 (by decide)
    _ = (W1 m ρ c (Proc.devRef .tc main_v1) : S800000.Idx → BitVec 32) := W2_of_ne m ρ c main_v1 (by decide)
    _ = edgeRow0 (edges m c) := host0_v1 (W0 m ρ c)

theorem w5_v3 : (W5 m ρ c (Proc.devRef .tc main_v3) : S800000.Idx → BitVec 32) = edgeRow1 (edges m c) :=
  calc (W5 m ρ c (Proc.devRef .tc main_v3) : S800000.Idx → BitVec 32)
    _ = (W4 m ρ c (Proc.devRef .tc main_v3) : S800000.Idx → BitVec 32) := W5_of_ne m ρ c main_v3 (by decide)
    _ = (W3 m ρ c (Proc.devRef .tc main_v3) : S800000.Idx → BitVec 32) := host2_keep_main_v3 (W3 m ρ c)
    _ = (W2 m ρ c (Proc.devRef .tc main_v3) : S800000.Idx → BitVec 32) := W3_of_ne m ρ c main_v3 (by decide)
    _ = (W1 m ρ c (Proc.devRef .tc main_v3) : S800000.Idx → BitVec 32) := W2_of_ne m ρ c main_v3 (by decide)
    _ = edgeRow1 (edges m c) := host0_v3 (W0 m ρ c)

theorem w5_arg5 : (W5 m ρ c (Proc.devRef .tc main_arg5) : S128.Idx → EReal) = (m ((c.tc : Thread nD τ).loc main_arg5) : S128.Idx → EReal) :=
  calc (W5 m ρ c (Proc.devRef .tc main_arg5) : S128.Idx → EReal)
    _ = (W4 m ρ c (Proc.devRef .tc main_arg5) : S128.Idx → EReal) := W5_of_ne m ρ c main_arg5 (by decide)
    _ = (W3 m ρ c (Proc.devRef .tc main_arg5) : S128.Idx → EReal) := host2_keep_main_arg5 (W3 m ρ c)
    _ = (W2 m ρ c (Proc.devRef .tc main_arg5) : S128.Idx → EReal) := W3_of_ne m ρ c main_arg5 (by decide)
    _ = (W1 m ρ c (Proc.devRef .tc main_arg5) : S128.Idx → EReal) := W2_of_ne m ρ c main_arg5 (by decide)
    _ = (W0 m ρ c (Proc.devRef .tc main_arg5) : S128.Idx → EReal) := host0_keep_main_arg5 (W0 m ρ c)
    _ = (m ((c.tc : Thread nD τ).loc main_arg5) : S128.Idx → EReal) := rfl

theorem w6_arg4 : (W6 m ρ c (Proc.devRef .tc main_arg4) : S128x128.Idx → EReal) = wt2 m c :=
  calc (W6 m ρ c (Proc.devRef .tc main_arg4) : S128x128.Idx → EReal)
    _ = (W5 m ρ c (Proc.devRef .tc main_arg4) : S128x128.Idx → EReal) := host3_keep_main_arg4 (W5 m ρ c)
    _ = (W4 m ρ c (Proc.devRef .tc main_arg4) : S128x128.Idx → EReal) := W5_of_ne m ρ c main_arg4 (by decide)
    _ = (W3 m ρ c (Proc.devRef .tc main_arg4) : S128x128.Idx → EReal) := host2_keep_main_arg4 (W3 m ρ c)
    _ = (W2 m ρ c (Proc.devRef .tc main_arg4) : S128x128.Idx → EReal) := W3_of_ne m ρ c main_arg4 (by decide)
    _ = (W1 m ρ c (Proc.devRef .tc main_arg4) : S128x128.Idx → EReal) := W2_of_ne m ρ c main_arg4 (by decide)
    _ = (W0 m ρ c (Proc.devRef .tc main_arg4) : S128x128.Idx → EReal) := host0_keep_main_arg4 (W0 m ρ c)
    _ = wt2 m c := rfl

/-! ## Region 3's entry (after the third host stretch) -/

theorem v6_v28 : (V6 m ρ c main_v28 : S50000x128.Idx → EReal) = out1 m c :=
  (host3_keep_main_v28 (W5 m ρ c)).trans (w5_v28 m ρ c)

theorem v6_v38 : (V6 m ρ c main_v38 : S50000x128.Idx → EReal) = agg m c (out1 m c) := by
  have h := host3_v38 (W5 m ρ c)
  rw [w5_v1 m ρ c, w5_v3 m ρ c, w5_v28 m ρ c] at h
  exact h

theorem v6_v39 (j : Fin 128) : (V6 m ρ c main_v39 : S1x128.Idx → EReal) (ix2 (0 : Fin 1) j) = vb2 m c j :=
  (host3_v39_apply (W5 m ρ c) j).trans (congrFun (w5_arg5 m ρ c) (ix1 j))

/-! ## Region 3's output: the second hidden activation -/

theorem v7_v40 : (V7 m ρ c main_v40 : S50000x128.Idx → EReal) = fun i => hid2 m c (i 0) (i 1) := by
  refine (W7_arr m ρ c 4).trans ((mlp3 (V6 m ρ) c).trans ?_)
  have e0 : feat3 (V6 m ρ) c = out1 m c := v6_v28 m ρ c
  have e1 : nbr3 (V6 m ρ) c = agg m c (out1 m c) := v6_v38 m ρ c
  have e2 : wt3 (V6 m ρ) c = wt2 m c := w6_arg4 m ρ c
  have e3 : (fun j => bias3 (V6 m ρ) c (ix2 0 j)) = vb2 m c := funext fun j => v6_v39 m ρ c j
  unfold hid3
  rw [e0, e1, e2, e3]
  rfl

/-! ## Region 4: the column sums of the second hidden activation -/

theorem v8_v40 : (V8 m ρ c main_v40 : S50000x128.Idx → EReal) = fun i => hid2 m c (i 0) (i 1) :=
  ((W8_arr m ρ c 0).trans (((dat4 (V7 m ρ) c).arrAt_in 0 rfl _).trans (A_eq4 (V7 m ρ) c 0))).trans (v7_v40 m ρ c)

theorem w8_sum (j : Fin 128) :
    (W8 m ρ c (Proc.devRef .tc main_v41_0) : S1x128.Idx → EReal) (ix2 (0 : Fin 1) j) = colSum (hid2 m c) j :=
  congrFun ((W8_arr m ρ c 1).trans (stats4_sum_of_eq (V7 m ρ) c _ (v7_v40 m ρ c))) (ix2 (0 : Fin 1) j)

theorem w8_sumsq (j : Fin 128) :
    (W8 m ρ c (Proc.devRef .tc main_v41_1) : S1x128.Idx → EReal) (ix2 (0 : Fin 1) j)
      = colSum (fun n j => hid2 m c n j * hid2 m c n j) j :=
  congrFun ((W8_arr m ρ c 2).trans (stats4_sumsq_of_eq (V7 m ρ) c _ (v7_v40 m ρ c))) (ix2 (0 : Fin 1) j)

theorem w8_arg8 : (W8 m ρ c (Proc.devRef .tc main_arg8) : S128.Idx → EReal) = (m ((c.tc : Thread nD τ).loc main_arg8) : S128.Idx → EReal) :=
  calc (W8 m ρ c (Proc.devRef .tc main_arg8) : S128.Idx → EReal)
    _ = (W7 m ρ c (Proc.devRef .tc main_arg8) : S128.Idx → EReal) := W8_of_ne m ρ c main_arg8 (by decide)
    _ = (W6 m ρ c (Proc.devRef .tc main_arg8) : S128.Idx → EReal) := W7_of_ne m ρ c main_arg8 (by decide)
    _ = (W5 m ρ c (Proc.devRef .tc main_arg8) : S128.Idx → EReal) := host3_keep_main_arg8 (W5 m ρ c)
    _ = (W4 m ρ c (Proc.devRef .tc main_arg8) : S128.Idx → EReal) := W5_of_ne m ρ c main_arg8 (by decide)
    _ = (W3 m ρ c (Proc.devRef .tc main_arg8) : S128.Idx → EReal) := host2_keep_main_arg8 (W3 m ρ c)
    _ = (W2 m ρ c (Proc.devRef .tc main_arg8) : S128.Idx → EReal) := W3_of_ne m ρ c main_arg8 (by decide)
    _ = (W1 m ρ c (Proc.devRef .tc main_arg8) : S128.Idx → EReal) := W2_of_ne m ρ c main_arg8 (by decide)
    _ = (W0 m ρ c (Proc.devRef .tc main_arg8) : S128.Idx → EReal) := host0_keep_main_arg8 (W0 m ρ c)
    _ = (m ((c.tc : Thread nD τ).loc main_arg8) : S128.Idx → EReal) := rfl

theorem w8_arg9 : (W8 m ρ c (Proc.devRef .tc main_arg9) : S128.Idx → EReal) = (m ((c.tc : Thread nD τ).loc main_arg9) : S128.Idx → EReal) :=
  calc (W8 m ρ c (Proc.devRef .tc main_arg9) : S128.Idx → EReal)
    _ = (W7 m ρ c (Proc.devRef .tc main_arg9) : S128.Idx → EReal) := W8_of_ne m ρ c main_arg9 (by decide)
    _ = (W6 m ρ c (Proc.devRef .tc main_arg9) : S128.Idx → EReal) := W7_of_ne m ρ c main_arg9 (by decide)
    _ = (W5 m ρ c (Proc.devRef .tc main_arg9) : S128.Idx → EReal) := host3_keep_main_arg9 (W5 m ρ c)
    _ = (W4 m ρ c (Proc.devRef .tc main_arg9) : S128.Idx → EReal) := W5_of_ne m ρ c main_arg9 (by decide)
    _ = (W3 m ρ c (Proc.devRef .tc main_arg9) : S128.Idx → EReal) := host2_keep_main_arg9 (W3 m ρ c)
    _ = (W2 m ρ c (Proc.devRef .tc main_arg9) : S128.Idx → EReal) := W3_of_ne m ρ c main_arg9 (by decide)
    _ = (W1 m ρ c (Proc.devRef .tc main_arg9) : S128.Idx → EReal) := W2_of_ne m ρ c main_arg9 (by decide)
    _ = (W0 m ρ c (Proc.devRef .tc main_arg9) : S128.Idx → EReal) := host0_keep_main_arg9 (W0 m ρ c)
    _ = (m ((c.tc : Thread nD τ).loc main_arg9) : S128.Idx → EReal) := rfl

/-! ## Region 5's entry (after the last host stretch) -/

theorem v9_v40 : (V9 m ρ c main_v40 : S50000x128.Idx → EReal) = fun i => hid2 m c (i 0) (i 1) :=
  (host5_keep_main_v40 (W8 m ρ c)).trans (v8_v40 m ρ c)

theorem v9_v43 (j : Fin 128) : (V9 m ρ c main_v43 : S1x128.Idx → EReal) (ix2 (0 : Fin 1) j) = mean (hid2 m c) j :=
  (host5_v43_apply (W8 m ρ c) j).trans (by rw [w8_sum m ρ c j]; rfl)

theorem v9_v50 (j : Fin 128) :
    (V9 m ρ c main_v50 : S1x128.Idx → EReal) (ix2 (0 : Fin 1) j) = invStd (varK (hid2 m c)) j :=
  (host5_v50_apply (W8 m ρ c) j).trans (by rw [w8_sum m ρ c j, w8_sumsq m ρ c j]; rfl)

theorem v9_v51 (j : Fin 128) : (V9 m ρ c main_v51 : S1x128.Idx → EReal) (ix2 (0 : Fin 1) j) = vg2 m c j :=
  (host5_v51_apply (W8 m ρ c) j).trans (congrFun (w8_arg8 m ρ c) (ix1 j))

theorem v9_v52 (j : Fin 128) : (V9 m ρ c main_v52 : S1x128.Idx → EReal) (ix2 (0 : Fin 1) j) = vbe2 m c j :=
  (host5_v52_apply (W8 m ρ c) j).trans (congrFun (w8_arg9 m ρ c) (ix1 j))

/-! ## The result buffer: the second layer -/

theorem kernel_value : (W10 m ρ c (Proc.devRef .tc main_v53) : S50000x128.Idx → EReal) = out2 m c := by
  refine (W10_arr m ρ c 5).trans ((apply5 (V9 m ρ) c).trans ?_)
  have e0 : (fun n j => (V9 m ρ c main_v40 : S50000x128.Idx → EReal) (ix2 n j)) = hid2 m c :=
    funext fun n => funext fun j => congrFun (v9_v40 m ρ c) (ix2 n j)
  have e1 : (fun j => (V9 m ρ c main_v43 : S1x128.Idx → EReal) (ix2 0 j)) = mean (hid2 m c) := funext (v9_v43 m ρ c)
  have e2 : (fun j => (V9 m ρ c main_v50 : S1x128.Idx → EReal) (ix2 0 j)) = invStd (varK (hid2 m c)) := funext (v9_v50 m ρ c)
  have e3 : (fun j => (V9 m ρ c main_v51 : S1x128.Idx → EReal) (ix2 0 j)) = vg2 m c := funext (v9_v51 m ρ c)
  have e4 : (fun j => (V9 m ρ c main_v52 : S1x128.Idx → EReal) (ix2 0 j)) = vbe2 m c := funext (v9_v52 m ρ c)
  rw [e0, e1, e2, e3, e4]
  rfl

end Cert.KernelIdeal.Layers

end
-- ==== Proof.SpecLaws.lean ====
/-
  Laws of the layer specification over the extended reals: the two spelt constants are the reals they denote,
  every intermediate array of a layer with real inputs is real, and on real activations the two ways of writing
  the column variance agree, hence so do the two layers.
-/
import proofs.«101512_j37709812859563_1_alg».proof.Proof.Spec
import Idealize.ShloMosaic.PureOps.Ideal
import Idealize.ShloMosaic.PureOps.Ideal.Laws
import Mathlib.Data.EReal.Basic
import Mathlib.Data.EReal.Operations
import Mathlib.Data.EReal.Inv

noncomputable section

open scoped BigOperators

namespace Cert.GinSpec

open Idealize.ShloMosaic Idealize.ShloMosaic.ValueIdx

/-! ### The two constants -/

/-- The row count: (2^23 + 4411392) · 2^(142 − 127 − 23) = 12800000 / 256 = 50000. -/
theorem nF_eq : nF = ((50000 : ℝ) : EReal) := by
  simp [nF, Ideal.ofBits, Ideal.ieee, -EReal.coe_mul]; norm_num

/-- The variance floor: (2^23 + 2606508) · 2^(110 − 127 − 23), a positive real. -/
theorem epsF_pos : ∃ e : ℝ, 0 < e ∧ epsF = (e : EReal) := by
  refine ⟨(10995116 : ℝ) * (2 : ℝ) ^ (-40 : Int), by positivity, ?_⟩
  simp [epsF, Ideal.ofBits, Ideal.ieee, -EReal.coe_mul]

/-! ### Finite sums of reals -/

/-- The coercion of a finite real sum is the sum of the coercions. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
private theorem exists_coe_sum {ι : Type} (s : Finset ι) (f : ι → EReal)
    (hf : ∀ i ∈ s, ∃ r : ℝ, f i = (r : EReal)) : ∃ r : ℝ, ∑ i ∈ s, f i = (r : EReal) := by
  classical
  induction s using Finset.induction_on with
  | empty => exact ⟨0, by simp⟩
  | insert a s ha ih =>
    obtain ⟨r₁, h₁⟩ := hf a (Finset.mem_insert_self a s)
    obtain ⟨r₂, h₂⟩ := ih (fun i hi => hf i (Finset.mem_insert_of_mem hi))
    exact ⟨r₁ + r₂, by rw [Finset.sum_insert ha, h₁, h₂, EReal.coe_add]⟩

/-! ### The hidden activation of real arrays is real -/

theorem isReal_hidden (z : SN.Idx → EReal) (W : SW.Idx → EReal) (b : Fin 128 → EReal) (hz : IsReal z) (hW : IsReal W)
    (hb : IsReal b) : ∀ n j, ∃ r : ℝ, hidden z W b n j = (r : EReal) := by
  intro n j
  obtain ⟨s, hs⟩ := exists_coe_sum Finset.univ (fun k : Fin 128 => z (ix2 n k) * W (ix2 k j)) (by
    intro k _
    obtain ⟨r₁, h₁⟩ := hz (ix2 n k)
    obtain ⟨r₂, h₂⟩ := hW (ix2 k j)
    exact ⟨r₁ * r₂, by rw [h₁, h₂, EReal.coe_mul]⟩)
  obtain ⟨c, hc⟩ := hb j
  unfold hidden
  rw [hs, hc, ← EReal.coe_add]
  rcases max_choice ((s + c : ℝ) : EReal) 0 with h | h
  · exact ⟨s + c, h⟩
  · exact ⟨0, by rw [h, EReal.coe_zero]⟩

/-! ### Column statistics of a real array, in the reals -/

private theorem colSum_coe (g : Fin 50000 → Fin 128 → ℝ) (j : Fin 128) :
    colSum (fun n j => (g n j : EReal)) j = ((∑ n : Fin 50000, g n j : ℝ) : EReal) := by
  unfold colSum
  rw [coe_sum]

private theorem mean_coe (g : Fin 50000 → Fin 128 → ℝ) (j : Fin 128) :
    mean (fun n j => (g n j : EReal)) j = (((∑ n : Fin 50000, g n j) * (1 / 50000) : ℝ) : EReal) := by
  unfold mean
  rw [colSum_coe, nF_eq, Ideal.div_coe (by norm_num), ← EReal.coe_mul]

private theorem varK_coe (g : Fin 50000 → Fin 128 → ℝ) (j : Fin 128) :
    varK (fun n j => (g n j : EReal)) j
      = (((∑ n : Fin 50000, g n j * g n j) * (1 / 50000)
          - ((∑ n : Fin 50000, g n j) * (1 / 50000)) * ((∑ n : Fin 50000, g n j) * (1 / 50000)) : ℝ) : EReal) := by
  have h2 : (fun (n : Fin 50000) (j : Fin 128) => (g n j : EReal) * (g n j : EReal))
      = fun n j => ((g n j * g n j : ℝ) : EReal) := by
    funext n j; rw [EReal.coe_mul]
  unfold varK
  beta_reduce
  rw [h2, colSum_coe, mean_coe, nF_eq, Ideal.div_coe (by norm_num), ← EReal.coe_mul, ← EReal.coe_mul, ← EReal.coe_sub]

private theorem varR_coe (g : Fin 50000 → Fin 128 → ℝ) (j : Fin 128) :
    varR (fun n j => (g n j : EReal)) j
      = (((∑ n : Fin 50000, (g n j - (∑ m : Fin 50000, g m j) * (1 / 50000))
            * (g n j - (∑ m : Fin 50000, g m j) * (1 / 50000))) * (1 / 50000) : ℝ) : EReal) := by
  have h2 : (fun (n : Fin 50000) (j : Fin 128) =>
        ((g n j : EReal) - mean (fun n j => (g n j : EReal)) j) * ((g n j : EReal) - mean (fun n j => (g n j : EReal)) j))
      = fun n j => (((g n j - (∑ m : Fin 50000, g m j) * (1 / 50000))
            * (g n j - (∑ m : Fin 50000, g m j) * (1 / 50000)) : ℝ) : EReal) := by
    funext n j; rw [mean_coe, ← EReal.coe_sub, ← EReal.coe_mul]
  unfold varR
  beta_reduce
  rw [h2, colSum_coe, nF_eq, Ideal.div_coe (by norm_num), ← EReal.coe_mul]

/-- In the reals: Σ (h − μ)² = Σ h² − N μ² when Σ h = N μ, divided through by N = 50000. -/
private theorem var_real (f : Fin 50000 → ℝ) :
    (∑ n : Fin 50000, f n * f n) * (1 / 50000)
        - ((∑ n : Fin 50000, f n) * (1 / 50000)) * ((∑ n : Fin 50000, f n) * (1 / 50000))
      = (∑ n : Fin 50000, (f n - (∑ m : Fin 50000, f m) * (1 / 50000)) * (f n - (∑ m : Fin 50000, f m) * (1 / 50000)))
          * (1 / 50000) := by
  set S : ℝ := ∑ m : Fin 50000, f m with hS
  have e : ∀ n : Fin 50000, (f n - S * (1 / 50000)) * (f n - S * (1 / 50000))
      = f n * f n - (2 * (S * (1 / 50000))) * f n + (S * (1 / 50000)) * (S * (1 / 50000)) := by
    intro n; ring
  simp only [e]
  rw [Finset.sum_add_distrib, Finset.sum_sub_distrib, ← Finset.mul_sum, Finset.sum_const, Finset.card_univ,
    Fintype.card_fin, ← hS, nsmul_eq_mul]
  push_cast
  ring

theorem varK_eq_varR (h : Fin 50000 → Fin 128 → EReal) (hh : ∀ n j, ∃ r : ℝ, h n j = (r : EReal)) : varK h = varR h := by
  choose g hg using hh
  have hfun : h = fun n j => (g n j : EReal) := by funext n j; exact hg n j
  subst hfun
  funext j
  rw [varK_coe, varR_coe, var_real (fun n => g n j)]

/-! ### The two layers -/

private theorem isReal_add {ι : Type} (u v : ι → EReal) (hu : IsReal u) (hv : IsReal v) : IsReal (fun i => u i + v i) := by
  intro i
  obtain ⟨a, ha⟩ := hu i
  obtain ⟨c, hc⟩ := hv i
  refine ⟨a + c, ?_⟩
  show u i + v i = ((a + c : ℝ) : EReal)
  rw [ha, hc, EReal.coe_add]

theorem layerK_eq_layerR (A : (SN.Idx → EReal) → SN.Idx → EReal) (x : SN.Idx → EReal) (W : SW.Idx → EReal)
    (b γ β : Fin 128 → EReal) (hx : IsReal x) (hA : IsReal (A x)) (hW : IsReal W) (hb : IsReal b) :
    layerK A x W b γ β = layerR A x W b γ β := by
  unfold layerK layerR
  rw [varK_eq_varR _ (isReal_hidden _ W b (isReal_add x (A x) hx hA) hW hb)]

/-- One entry of the normalised array of a real activation: the radicand is a mean of squares plus the positive
    floor, so it is a positive real and its inverse square root is a real. -/
private theorem normed_point (g : Fin 50000 → Fin 128 → ℝ) (γ β : Fin 128 → EReal) (hγ : IsReal γ) (hβ : IsReal β)
    (n : Fin 50000) (j : Fin 128) :
    ∃ r : ℝ, ((g n j : EReal) - mean (fun n j => (g n j : EReal)) j)
        * invStd (varR (fun n j => (g n j : EReal))) j * γ j + β j = (r : EReal) := by
  obtain ⟨e, he, hee⟩ := epsF_pos
  obtain ⟨c, hc⟩ := hγ j
  obtain ⟨d, hd⟩ := hβ j
  have hv : 0 ≤ (∑ n : Fin 50000, (g n j - (∑ m : Fin 50000, g m j) * (1 / 50000))
            * (g n j - (∑ m : Fin 50000, g m j) * (1 / 50000))) * (1 / 50000 : ℝ) :=
    mul_nonneg (Finset.sum_nonneg (fun n _ => mul_self_nonneg _)) (by norm_num)
  unfold invStd
  rw [mean_coe, varR_coe, hee, hc, hd, ← EReal.coe_add, Ideal.rsqrt_coe, if_neg (by linarith), if_neg (by linarith),
    ← EReal.coe_sub, ← EReal.coe_mul, ← EReal.coe_mul, ← EReal.coe_add]
  exact ⟨_, rfl⟩

theorem isReal_layerR (A : (SN.Idx → EReal) → SN.Idx → EReal) (x : SN.Idx → EReal) (W : SW.Idx → EReal)
    (b γ β : Fin 128 → EReal) (hx : IsReal x) (hA : IsReal (A x)) (hW : IsReal W) (hb : IsReal b) (hγ : IsReal γ)
    (hβ : IsReal β) : IsReal (layerR A x W b γ β) := by
  choose g hg using isReal_hidden _ W b (isReal_add x (A x) hx hA) hW hb
  have hfun : hidden (fun i => x i + A x i) W b = fun n j => (g n j : EReal) := by funext n j; exact hg n j
  intro i
  unfold layerR
  rw [hfun]
  exact normed_point g γ β hγ hβ (i 0) (i 1)

/-- Two layers in a row, for any neighbourhood sum that keeps real arrays real: the inner layers agree on the real
    input, and the outer layers agree on the inner layer's output, which is real. -/
theorem two_layers (A : (SN.Idx → EReal) → SN.Idx → EReal) (hA : ∀ y, IsReal y → IsReal (A y)) (x : SN.Idx → EReal)
    (W1 W2 : SW.Idx → EReal) (b1 g1 be1 b2 g2 be2 : Fin 128 → EReal) (hx : IsReal x) (hW1 : IsReal W1) (hb1 : IsReal b1)
    (hg1 : IsReal g1) (hbe1 : IsReal be1) (hW2 : IsReal W2) (hb2 : IsReal b2) :
    layerK A (layerK A x W1 b1 g1 be1) W2 b2 g2 be2 = layerR A (layerR A x W1 b1 g1 be1) W2 b2 g2 be2 := by
  have h1 : IsReal (layerR A x W1 b1 g1 be1) := isReal_layerR A x W1 b1 g1 be1 hx (hA x hx) hW1 hb1 hg1 hbe1
  rw [layerK_eq_layerR A x W1 b1 g1 be1 hx (hA x hx) hW1 hb1,
    layerK_eq_layerR A (layerR A x W1 b1 g1 be1) W2 b2 g2 be2 h1 (hA _ h1) hW2 hb2]

/-! ### Gathers and accumulating scatters of real arrays are real -/

theorem isReal_gather {s si t : Shape} {w : Nat} (d : GatherDims s si t) (x : s.Idx → EReal) (idx : IVec si w)
    (hx : IsReal x) : IsReal (Host.gather d x idx) := by
  intro j
  exact hx (d.operandIdx j idx)

theorem isReal_scatterAdd {s si u : Shape} {w : Nat} (d : ScatterDims s si u) (x : FVec Ideal s .f32) (idx : IVec si w)
    (upd : FVec Ideal u .f32) (hx : IsReal x) (hu : IsReal upd) : IsReal (Host.scatterAdd (F := Ideal) d x idx upd) := by
  intro i
  obtain ⟨a, ha⟩ := hx i
  obtain ⟨c, hc⟩ := exists_coe_sum (Finset.univ.filter (fun j => d.resultIdx? j idx = some i)) upd (fun j _ => hu j)
  refine ⟨a + c, ?_⟩
  show x i + ∑ j ∈ Finset.univ.filter (fun j => d.resultIdx? j idx = some i), upd j = ((a + c : ℝ) : EReal)
  rw [ha, hc, EReal.coe_add]

end Cert.GinSpec

end
-- ==== Proof.RefValue.lean ====
/-
  What the idealized reference computes, read stage by stage: each of its two halves is one layer of the specification
  in the mean-squared-deviation form. For a half with input y, weights W, bias b, scale γ and shift β:
    the scatter-add of the gathered rows of y is the neighbourhood sum of y (one opaque function of y);
    the rectified affine image of y + (neighbourhood sum of y) is the hidden activation h;
    the column sums of h over 50000 are the column means μ;
    the column sums of (h − μ)² over 50000 are the column variances v;
    (h − μ) · (v + ε)^(−1/2) · γ + β is the layer.
  The second half runs the same operations on the first half's output, with the same edge list.
-/
import proofs.«101512_j37709812859563_1_alg».proof.Proof.RefStages
import proofs.«101512_j37709812859563_1_alg».proof.Proof.Spec
import proofs.«101512_j37709812859563_1_alg».proof.Proof.SpecLaws
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.ReadP Cert.GinSpec Idealize.ShloMosaic Idealize.ShloMosaic.TcCoe
  Idealize.ShloMosaic.ValueIdx

/-- The neighbourhood sum as the reference's operations spell it: gather the rows named by the source column of the
    edge list, and add each gathered row into the row named by the destination column, starting from zero. -/
def aggR (e : (⟨S2x800000, .i32⟩ : BufTy).Contents (Elt Ideal)) (y : SN.Idx → EReal) : SN.Idx → EReal :=
  Host.scatterAdd (F := Ideal) (φ := .f32) scatter_S50000x128_S800000x1_S800000x128_1_0_0_1 (val_main_v11 (F := Ideal)) (val_main_v12 (F := Ideal) e)
    (Host.gather gather_S50000x128_S800000x1_S800000x128_1_0_n_n_0_1_1128 y (val_main_v9 (F := Ideal) e))

/-- The neighbourhood sum of a real array is real: a gather picks entries, the scatter-add starts from zero and adds
    finitely many of them. -/
theorem isReal_aggR (e : (⟨S2x800000, .i32⟩ : BufTy).Contents (Elt Ideal)) (y : SN.Idx → EReal) (hy : IsReal y) :
    IsReal (aggR e y) := by
  unfold aggR
  refine isReal_scatterAdd _ _ _ _ (fun i => ⟨0, ?_⟩) (isReal_gather _ _ _ hy)
  rw [val_main_v11_apply, val_main_cst_apply, Ideal.ofBits_def, Ideal.ofBits_zero_f32, EReal.coe_zero]

section Layer1

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 x6 x7 : (⟨S128, .f32⟩ : BufTy).Contents (Elt Ideal))

theorem v13_eq : val_main_v13 (F := Ideal) x0 x1 = aggR x1 x0 := by
  unfold val_main_v13 val_main_v10 aggR
  rfl

theorem v19_eq (n : Fin 50000) (j : Fin 128) :
    val_main_v19 (F := Ideal) x0 x1 x2 x3 (ix2 n j)
      = hidden (fun i => x0 i + aggR x1 x0 i) x2 (fun j => x3 (ix1 j)) n j := by
  have hl : ∀ k : Fin 128, lidx_main_v15 (ix2 n j) k = ix2 n k := fun k =>
    funext fun a => by match a with | ⟨0, _⟩ => rfl | ⟨1, _⟩ => rfl
  have hr : ∀ k : Fin 128, ridx_main_v15 (ix2 n j) k = ix2 k j := fun k =>
    funext fun a => by match a with | ⟨0, _⟩ => rfl | ⟨1, _⟩ => rfl
  have hb : idx_main_v16 (idx_main_v17 (ix2 n j)) = ix1 j :=
    funext fun a => by match a with | ⟨0, _⟩ => rfl
  rw [val_main_v19_apply, val_main_v18_apply, val_main_v15_apply, val_main_v17_apply, val_main_v16_apply,
    val_main_call0_v0_apply, val_main_call0_cst_apply, hb]
  simp only [hl, hr, val_main_v14_apply, v13_eq, Ideal.addf_def, Ideal.maximumf_def, Ideal.ofBits_def, Ideal.ofBits_zero_f32]
  rfl

theorem v22_eq (j : Fin 128) :
    val_main_v22 (F := Ideal) x0 x1 x2 x3 (ix1 j)
      = mean (hidden (fun i => x0 i + aggR x1 x0 i) x2 (fun j => x3 (ix1 j))) j := by
  have hi : ∀ k : Fin 50000, idx_main_v20 (ix1 j) k = ix2 k j := fun k =>
    funext fun a => by match a with | ⟨0, _⟩ => rfl | ⟨1, _⟩ => rfl
  rw [val_main_v22_apply, val_main_v20_apply, val_main_v21_apply, val_main_cst_2_apply, val_main_cst_1_apply]
  simp only [hi, v19_eq, Ideal.hostDivf_def, Ideal.ofBits_def, Ideal.ofBits_zero_f32, zero_add]
  rfl

theorem v29_eq (j : Fin 128) :
    val_main_v29 (F := Ideal) x0 x1 x2 x3 (ix1 j)
      = varR (hidden (fun i => x0 i + aggR x1 x0 i) x2 (fun j => x3 (ix1 j))) j := by
  have hi : ∀ k : Fin 50000, idx_main_v27 (ix1 j) k = ix2 k j := fun k =>
    funext fun a => by match a with | ⟨0, _⟩ => rfl | ⟨1, _⟩ => rfl
  have hm : ∀ k : Fin 50000, idx_main_v23 (idx_main_v24 (ix2 k j)) = ix1 j := fun k =>
    funext fun a => by match a with | ⟨0, _⟩ => rfl
  rw [val_main_v29_apply, val_main_v27_apply, val_main_v28_apply, val_main_cst_4_apply, val_main_cst_3_apply]
  simp only [hi, val_main_v26_apply, val_main_v25_apply, val_main_v24_apply, val_main_v23_apply, hm, v19_eq, v22_eq,
    Ideal.hostDivf_def, Ideal.mulf_def, Ideal.subf_def, Ideal.ofBits_def, Ideal.ofBits_zero_f32, zero_add]
  rfl

theorem v44_eq :
    val_main_v44 (F := Ideal) x0 x1 x2 x3 x6 x7
      = layerR (aggR x1) x0 x2 (fun j => x3 (ix1 j)) (fun j => x6 (ix1 j)) (fun j => x7 (ix1 j)) := by
  funext i
  obtain ⟨n, j, rfl⟩ : ∃ (n : Fin 50000) (j : Fin 128), i = ix2 n j := ⟨i 0, i 1, eq_ix2 i⟩
  have hm : idx_main_v30 (idx_main_v31 (ix2 n j)) = ix1 j := funext fun a => by match a with | ⟨0, _⟩ => rfl
  have hs : idx_main_v36 (idx_main_v37 (ix2 n j)) = ix1 j := funext fun a => by match a with | ⟨0, _⟩ => rfl
  have hg : idx_main_v39 (idx_main_v40 (ix2 n j)) = ix1 j := funext fun a => by match a with | ⟨0, _⟩ => rfl
  have hb : idx_main_v42 (idx_main_v43 (ix2 n j)) = ix1 j := funext fun a => by match a with | ⟨0, _⟩ => rfl
  rw [val_main_v44_apply, val_main_v41_apply, val_main_v38_apply, val_main_v32_apply, val_main_v31_apply, val_main_v30_apply,
    val_main_v37_apply, val_main_v36_apply, val_main_v35_apply, val_main_v34_apply, val_main_v33_apply, val_main_cst_5_apply,
    val_main_v40_apply, val_main_v39_apply, val_main_v43_apply, val_main_v42_apply, hm, hs, hg, hb, v19_eq, v22_eq, v29_eq]
  simp only [Ideal.addf_def, Ideal.mulf_def, Ideal.subf_def, Ideal.hostUnary_rsqrt_def, Ideal.ofBits_def]
  unfold layerR
  rw [normed_ix2]
  rfl

end Layer1

section Layer2

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 x6 x7 x8 x9 : (⟨S128, .f32⟩ : BufTy).Contents (Elt Ideal))

/-- The second layer's zero operand, destination column and source column are the first layer's: the same operations
    on the same edge list. -/
theorem v52_eq : val_main_v52 (F := Ideal) = val_main_v11 (F := Ideal) := by
  unfold val_main_v52 val_main_v11 val_main_cst_8 val_main_cst
  rfl

theorem v53_eq : val_main_v53 (F := Ideal) x1 = val_main_v12 (F := Ideal) x1 := by
  unfold val_main_v53 val_main_v12
  rfl

theorem v50_eq : val_main_v50 (F := Ideal) x1 = val_main_v9 (F := Ideal) x1 := by
  unfold val_main_v50 val_main_v9 val_main_v49 val_main_v8 val_main_v46 val_main_v5 val_main_v48 val_main_v7 val_main_v45 val_main_v4
    val_main_v47 val_main_v6 val_main_c_6 val_main_c val_main_c_7 val_main_c_0
  rfl

theorem v54_eq :
    val_main_v54 (F := Ideal) x0 x1 x2 x3 x6 x7 = aggR x1 (val_main_v44 (F := Ideal) x0 x1 x2 x3 x6 x7) := by
  unfold val_main_v54 val_main_v51 aggR
  rw [v52_eq, v53_eq, v50_eq]

theorem v60_eq (n : Fin 50000) (j : Fin 128) :
    val_main_v60 (F := Ideal) x0 x1 x2 x3 x4 x5 x6 x7 (ix2 n j)
      = hidden (fun i => val_main_v44 (F := Ideal) x0 x1 x2 x3 x6 x7 i
          + aggR x1 (val_main_v44 (F := Ideal) x0 x1 x2 x3 x6 x7) i) x4 (fun j => x5 (ix1 j)) n j := by
  have hl : ∀ k : Fin 128, lidx_main_v56 (ix2 n j) k = ix2 n k := fun k =>
    funext fun a => by match a with | ⟨0, _⟩ => rfl | ⟨1, _⟩ => rfl
  have hr : ∀ k : Fin 128, ridx_main_v56 (ix2 n j) k = ix2 k j := fun k =>
    funext fun a => by match a with | ⟨0, _⟩ => rfl | ⟨1, _⟩ => rfl
  have hb : idx_main_v57 (idx_main_v58 (ix2 n j)) = ix1 j :=
    funext fun a => by match a with | ⟨0, _⟩ => rfl
  rw [val_main_v60_apply, val_main_v59_apply, val_main_v56_apply, val_main_v58_apply, val_main_v57_apply,
    val_main_call1_v0_apply, val_main_call1_cst_apply, hb]
  simp only [hl, hr, val_main_v55_apply, v54_eq, Ideal.addf_def, Ideal.maximumf_def, Ideal.ofBits_def, Ideal.ofBits_zero_f32]
  rfl

theorem v63_eq (j : Fin 128) :
    val_main_v63 (F := Ideal) x0 x1 x2 x3 x4 x5 x6 x7 (ix1 j)
      = mean (hidden (fun i => val_main_v44 (F := Ideal) x0 x1 x2 x3 x6 x7 i
          + aggR x1 (val_main_v44 (F := Ideal) x0 x1 x2 x3 x6 x7) i) x4 (fun j => x5 (ix1 j))) j := by
  have hi : ∀ k : Fin 50000, idx_main_v61 (ix1 j) k = ix2 k j := fun k =>
    funext fun a => by match a with | ⟨0, _⟩ => rfl | ⟨1, _⟩ => rfl
  rw [val_main_v63_apply, val_main_v61_apply, val_main_v62_apply, val_main_cst_10_apply, val_main_cst_9_apply]
  simp only [hi, v60_eq, Ideal.hostDivf_def, Ideal.ofBits_def, Ideal.ofBits_zero_f32, zero_add]
  rfl

theorem v70_eq (j : Fin 128) :
    val_main_v70 (F := Ideal) x0 x1 x2 x3 x4 x5 x6 x7 (ix1 j)
      = varR (hidden (fun i => val_main_v44 (F := Ideal) x0 x1 x2 x3 x6 x7 i
          + aggR x1 (val_main_v44 (F := Ideal) x0 x1 x2 x3 x6 x7) i) x4 (fun j => x5 (ix1 j))) j := by
  have hi : ∀ k : Fin 50000, idx_main_v68 (ix1 j) k = ix2 k j := fun k =>
    funext fun a => by match a with | ⟨0, _⟩ => rfl | ⟨1, _⟩ => rfl
  have hm : ∀ k : Fin 50000, idx_main_v64 (idx_main_v65 (ix2 k j)) = ix1 j := fun k =>
    funext fun a => by match a with | ⟨0, _⟩ => rfl
  rw [val_main_v70_apply, val_main_v68_apply, val_main_v69_apply, val_main_cst_12_apply, val_main_cst_11_apply]
  simp only [hi, val_main_v67_apply, val_main_v66_apply, val_main_v65_apply, val_main_v64_apply, hm, v60_eq, v63_eq,
    Ideal.hostDivf_def, Ideal.mulf_def, Ideal.subf_def, Ideal.ofBits_def, Ideal.ofBits_zero_f32, zero_add]
  rfl

theorem v85_eq :
    val_main_v85 (F := Ideal) x0 x1 x2 x3 x4 x5 x6 x7 x8 x9
      = layerR (aggR x1) (val_main_v44 (F := Ideal) x0 x1 x2 x3 x6 x7) x4 (fun j => x5 (ix1 j)) (fun j => x8 (ix1 j))
          (fun j => x9 (ix1 j)) := by
  funext i
  obtain ⟨n, j, rfl⟩ : ∃ (n : Fin 50000) (j : Fin 128), i = ix2 n j := ⟨i 0, i 1, eq_ix2 i⟩
  have hm : idx_main_v71 (idx_main_v72 (ix2 n j)) = ix1 j := funext fun a => by match a with | ⟨0, _⟩ => rfl
  have hs : idx_main_v77 (idx_main_v78 (ix2 n j)) = ix1 j := funext fun a => by match a with | ⟨0, _⟩ => rfl
  have hg : idx_main_v80 (idx_main_v81 (ix2 n j)) = ix1 j := funext fun a => by match a with | ⟨0, _⟩ => rfl
  have hb : idx_main_v83 (idx_main_v84 (ix2 n j)) = ix1 j := funext fun a => by match a with | ⟨0, _⟩ => rfl
  rw [val_main_v85_apply, val_main_v82_apply, val_main_v79_apply, val_main_v73_apply, val_main_v72_apply, val_main_v71_apply,
    val_main_v78_apply, val_main_v77_apply, val_main_v76_apply, val_main_v75_apply, val_main_v74_apply, val_main_cst_13_apply,
    val_main_v81_apply, val_main_v80_apply, val_main_v84_apply, val_main_v83_apply, hm, hs, hg, hb, v60_eq, v63_eq, v70_eq]
  simp only [Ideal.addf_def, Ideal.mulf_def, Ideal.subf_def, Ideal.hostUnary_rsqrt_def, Ideal.ofBits_def]
  unfold layerR
  rw [normed_ix2]
  rfl

/-- What the idealized reference computes: two layers in the mean-squared-deviation form, the second on the first's
    output, both with the neighbourhood sum over the same edge list. -/
theorem ref_value :
    val_main_v85 (F := Ideal) x0 x1 x2 x3 x4 x5 x6 x7 x8 x9
      = layerR (aggR x1) (layerR (aggR x1) x0 x2 (fun j => x3 (ix1 j)) (fun j => x6 (ix1 j)) (fun j => x7 (ix1 j))) x4
          (fun j => x5 (ix1 j)) (fun j => x8 (ix1 j)) (fun j => x9 (ix1 j)) := by
  rw [v85_eq, v44_eq]

end Layer2

end Cert.ReferenceIdeal.RefValue

end
-- ==== Proof.AggBridge.lean ====
/-
  The two programs spell the neighbourhood sum with the same operations: cut the edge list into its two rows, wrap the
  negative source ids by the row count, gather the rows of the array at the source ids, and add them into zeros at the
  destination ids. Their shape and dimension-number records carry the same numbers, so the two sums are one function
  of the edge list and the array.
-/
import proofs.«101512_j37709812859563_1_alg».proof.Proof.HostStretch
import proofs.«101512_j37709812859563_1_alg».proof.Proof.RefValue

noncomputable section

namespace Cert.Proof.AggBridge

open Idealize.ShloMosaic

/-- The two scatter records have the same dimension numbers. -/
theorem scatter_eq : Cert.KernelIdeal.scatter_S50000x128_S800000x1_S800000x128_1_0_0_1
    = Cert.ReferenceIdeal.scatter_S50000x128_S800000x1_S800000x128_1_0_0_1 := rfl

/-- The two gather records have the same dimension numbers and slice sizes. -/
theorem gather_eq : Cert.KernelIdeal.gather_S50000x128_S800000x1_S800000x128_1_0_n_n_0_1_1128
    = Cert.ReferenceIdeal.gather_S50000x128_S800000x1_S800000x128_1_0_n_n_0_1_1128 := rfl

set_option maxHeartbeats 50000 in
/-- The neighbourhood sum of the one program, on the two rows of the edge list, is the other's on the edge list. -/
theorem agg_eq (e : Cert.KernelIdeal.S2x800000.Idx → BitVec 32) (y : Cert.GinSpec.SN.Idx → EReal) :
    Cert.KernelIdeal.HostStretch.aggOf (Cert.KernelIdeal.HostStretch.edgeRow0 e) (Cert.KernelIdeal.HostStretch.edgeRow1 e) y
      = Cert.ReferenceIdeal.RefValue.aggR e y := by
  unfold Cert.KernelIdeal.HostStretch.aggOf Cert.KernelIdeal.HostStretch.srcCol Cert.KernelIdeal.HostStretch.edgeRow0
    Cert.KernelIdeal.HostStretch.edgeRow1 Cert.ReferenceIdeal.RefValue.aggR
    Cert.ReferenceIdeal.ReadP.val_main_v11 Cert.ReferenceIdeal.ReadP.val_main_cst
    Cert.ReferenceIdeal.ReadP.val_main_v12 Cert.ReferenceIdeal.ReadP.val_main_v3 Cert.ReferenceIdeal.ReadP.val_main_v2
    Cert.ReferenceIdeal.ReadP.val_main_v9 Cert.ReferenceIdeal.ReadP.val_main_v8 Cert.ReferenceIdeal.ReadP.val_main_v5
    Cert.ReferenceIdeal.ReadP.val_main_v7 Cert.ReferenceIdeal.ReadP.val_main_v4 Cert.ReferenceIdeal.ReadP.val_main_v6
    Cert.ReferenceIdeal.ReadP.val_main_c Cert.ReferenceIdeal.ReadP.val_main_c_0 Cert.ReferenceIdeal.ReadP.val_main_v1
    Cert.ReferenceIdeal.ReadP.val_main_v0
  rw [scatter_eq, gather_eq]

end Cert.Proof.AggBridge

end
-- ==== Proof.PreReal.lean ====
/-
  The certificate's precondition says that on every float argument `all (|x| < +∞)` holds, the nine verdicts joined by
  `and`. Read back: a conjunction of one-bit words is 1 only if each is; an `and`-reduction over all axes is 1 only if
  every entry is; and an extended real x with max x (−x) < +∞ is neither infinity, hence a real number.
-/
import proofs.«101512_j37709812859563_1_alg».proof.Proof.Spec
import proofs.«101512_j37709812859563_1_alg».proof.Defs
import proofs.«101512_j37709812859563_1_alg».proof.Proof.Gen.Pre_finite_inputs
import Idealize.ShloMosaic.Lib.ReduceAll
import Idealize.ShloMosaic.Lib.ValueIdx

noncomputable section

namespace Cert.Proof.PreReal

open Idealize.ShloMosaic Idealize.SL.Sem Idealize.ShloMosaic.ValueIdx
open Cert.GinSpec

/-- The index set of a rank-0 array has one point. -/
instance subsingleton_S_ : Subsingleton Cert.Pre_finite_inputs.S_.Idx := ⟨fun _ _ => funext fun d => d.elim0⟩

/-- An extended real whose absolute value `max x (-x)` lies strictly below the f32 word of +∞ is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- `all (|v| < +∞)` over a whole array, read back: every entry of `v` is a real number. -/
theorem isReal_of_all {s : Shape} {axes : List (Fin s.rank)} (v : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf v) (broadcastInDim s ![] hb (constant Cert.Pre_finite_inputs.S_ .f32 0x7F800000#32)))
          (constantI Cert.Pre_finite_inputs.S_ 1 1#1) hr hu ix0 = 1#1) :
    IsReal (v : s.Idx → EReal) := by
  intro i
  have hi := Host.reduce_andi_all _ _ hr hu ix0 e i
  exact real_of_abs_lt (v i) hi

/-- Under the certificate's precondition each of the nine float arguments is an array of real numbers. -/
theorem args_real (m : (ℓ : Loc Cert.KernelIdeal.nD Cert.KernelIdeal.τ Cert.KernelIdeal.sig) → Buf (Elt Ideal) ℓ)
    [hP : Cert.Pre_finite_inputs.Facts] (hpre : Cert.Pre_KernelIdeal m) (c : Dev Cert.KernelIdeal.nD) :
    IsReal (m ((c.tc : Thread Cert.KernelIdeal.nD Cert.KernelIdeal.τ).loc Cert.KernelIdeal.main_arg0) : Cert.KernelIdeal.S50000x128.Idx → EReal)
    ∧ IsReal (m ((c.tc : Thread Cert.KernelIdeal.nD Cert.KernelIdeal.τ).loc Cert.KernelIdeal.main_arg2) : Cert.KernelIdeal.S128x128.Idx → EReal)
    ∧ IsReal (m ((c.tc : Thread Cert.KernelIdeal.nD Cert.KernelIdeal.τ).loc Cert.KernelIdeal.main_arg3) : Cert.KernelIdeal.S128.Idx → EReal)
    ∧ IsReal (m ((c.tc : Thread Cert.KernelIdeal.nD Cert.KernelIdeal.τ).loc Cert.KernelIdeal.main_arg4) : Cert.KernelIdeal.S128x128.Idx → EReal)
    ∧ IsReal (m ((c.tc : Thread Cert.KernelIdeal.nD Cert.KernelIdeal.τ).loc Cert.KernelIdeal.main_arg5) : Cert.KernelIdeal.S128.Idx → EReal)
    ∧ IsReal (m ((c.tc : Thread Cert.KernelIdeal.nD Cert.KernelIdeal.τ).loc Cert.KernelIdeal.main_arg6) : Cert.KernelIdeal.S128.Idx → EReal)
    ∧ IsReal (m ((c.tc : Thread Cert.KernelIdeal.nD Cert.KernelIdeal.τ).loc Cert.KernelIdeal.main_arg7) : Cert.KernelIdeal.S128.Idx → EReal)
    ∧ IsReal (m ((c.tc : Thread Cert.KernelIdeal.nD Cert.KernelIdeal.τ).loc Cert.KernelIdeal.main_arg8) : Cert.KernelIdeal.S128.Idx → EReal)
    ∧ IsReal (m ((c.tc : Thread Cert.KernelIdeal.nD Cert.KernelIdeal.τ).loc Cert.KernelIdeal.main_arg9) : Cert.KernelIdeal.S128.Idx → EReal) := by
  have h := congrFun (hpre c) ix0
  dsimp only [Cert.Pre_finite_inputs.fn, Cert.Pre_finite_inputs.fn_part1, Cert.Pre_finite_inputs.fn_part2] at h
  simp only [andi, IntOp.andi_eq_one] at h
  obtain ⟨⟨⟨⟨⟨⟨⟨⟨h0, h2⟩, h3⟩, h4⟩, h5⟩, h6⟩, h7⟩, h8⟩, h9⟩ := h
  exact ⟨isReal_of_all _ _ _ _ h0, isReal_of_all _ _ _ _ h2, isReal_of_all _ _ _ _ h3, isReal_of_all _ _ _ _ h4,
    isReal_of_all _ _ _ _ h5, isReal_of_all _ _ _ _ h6, isReal_of_all _ _ _ _ h7, isReal_of_all _ _ _ _ h8,
    isReal_of_all _ _ _ _ h9⟩

end Cert.Proof.PreReal

end
-- ==== Proof.lean ====
/-
  The certificate of a two-layer graph-isomorphism network with training-mode batch normalisation after each layer: the
  kernel program (six pallas_call regions among host operations) against the plain reference.

  Both programs compute, per layer, z = x + A x (A the neighbourhood sum along the edge list), h = max (z · W + b) 0,
  the column mean μ of h, a column variance, and (h − μ) · (var + ε)^(−1/2) · γ + β. They differ in one place only: the
  kernel takes the variance as the second moment minus the squared mean, (Σ h²)/N − μ², the reference as the mean squared
  deviation, (Σ (h − μ)²)/N. Over the extended reals the two agree when every entry of h is a real number, and h is real
  because the inputs are finite: a gather picks entries of a real array, the scatter-add and the matrix product are finite
  sums of reals, and the first layer's output is real since its variance is nonnegative and ε is positive. That is where
  the precondition is used.

  The three frames: the two kernel programs' are the launch over their regions; the reference's is its run with the result
  dropped. No rewrite was applied in idealizing the kernel, so nothing is to be preserved.
-/
import proofs.«101512_j37709812859563_1_alg».proof.Defs
import proofs.«101512_j37709812859563_1_alg».proof.Proof.Gen.Kernel
import proofs.«101512_j37709812859563_1_alg».proof.Proof.KernelFrame
import proofs.«101512_j37709812859563_1_alg».proof.Proof.Gen.KernelIdeal
import proofs.«101512_j37709812859563_1_alg».proof.Proof.KernelIdealRun
import proofs.«101512_j37709812859563_1_alg».proof.Proof.KernelLayers
import proofs.«101512_j37709812859563_1_alg».proof.Proof.Gen.ReferenceIdeal
import proofs.«101512_j37709812859563_1_alg».proof.Proof.RefRunEq
import proofs.«101512_j37709812859563_1_alg».proof.Proof.RefValue
import proofs.«101512_j37709812859563_1_alg».proof.Proof.AggBridge
import proofs.«101512_j37709812859563_1_alg».proof.Proof.SpecLaws
import proofs.«101512_j37709812859563_1_alg».proof.Proof.PreReal
import proofs.«101512_j37709812859563_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem Idealize.ShloMosaic.ValueIdx Cert.GinSpec

/-- Every weakly fair execution of the kernel program terminates without a fault and leaves its arguments as launched. -/
theorem frame_kernel : Cert.frame_Kernel := fun m ρ _ => Cert.Kernel.GenP.frame m ρ

/-- The same for the idealized kernel program. -/
theorem frame_kernelIdeal : Cert.frame_KernelIdeal := fun m ρ _ => Cert.KernelIdeal.GenP.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The two programs end with the same result: the kernel's result buffer holds two layers with the variance as second
    moment minus squared mean, the reference's two layers with the mean squared deviation, along one neighbourhood sum;
    on real arrays the two layers agree. -/
theorem algebraic : Cert.algebraic_KernelIdeal_ReferenceIdeal := by
  intro m ρ m' ρ' hpre hagree
  refine ⟨fun c => Cert.KernelIdeal.GenP.W10 m ρ c (Proc.devRef .tc Cert.KernelIdeal.main_v53), Cert.KernelIdeal.GenP.run_named (F := Ideal) m ρ, ?_⟩
  refine (θ_run Cert.ReferenceIdeal.defs _ _).mono (fun _ h c => ⟨(h c).1.trans ?_, (h c).2⟩) (Cert.ReferenceIdeal.ValueP.run (F := Ideal) m' ρ')
  obtain ⟨a0, a1, a2, a3, a4, a5, a6, a7, a8, a9⟩ := hagree c
  obtain ⟨r0, r2, r3, r4, r5, r6, r7, r8, r9⟩ := Cert.Proof.PreReal.args_real m hpre c
  rw [Cert.ReferenceIdeal.ReadP.val_main_v85_eq, a0, a1, a2, a3, a4, a5, a6, a7, a8, a9, Cert.ReferenceIdeal.RefValue.ref_value]
  refine Eq.trans ?_ (Cert.KernelIdeal.Layers.kernel_value m ρ c).symm
  have hA : Cert.KernelIdeal.Layers.agg m c = Cert.ReferenceIdeal.RefValue.aggR (Cert.KernelIdeal.Layers.edges m c) :=
    funext fun y => funext fun i => congrFun (Cert.Proof.AggBridge.agg_eq (Cert.KernelIdeal.Layers.edges m c) y) i
  have hvec : ∀ (v : Cert.KernelIdeal.S128.Idx → EReal), IsReal v → IsReal (fun j : Fin 128 => v (ix1 j)) := fun v hv j => hv (ix1 j)
  show layerR _ (layerR _ _ _ _ _ _) _ _ _ _ = Cert.KernelIdeal.Layers.out2 m c
  unfold Cert.KernelIdeal.Layers.out2 Cert.KernelIdeal.Layers.out1
  rw [hA]
  exact (two_layers (Cert.ReferenceIdeal.RefValue.aggR (Cert.KernelIdeal.Layers.edges m c)) (fun y hy => Cert.ReferenceIdeal.RefValue.isReal_aggR _ y hy)
    (Cert.KernelIdeal.Layers.xin m c) (Cert.KernelIdeal.Layers.wt1 m c) (Cert.KernelIdeal.Layers.wt2 m c)
    (Cert.KernelIdeal.Layers.vb1 m c) (Cert.KernelIdeal.Layers.vg1 m c) (Cert.KernelIdeal.Layers.vbe1 m c) (Cert.KernelIdeal.Layers.vb2 m c) (Cert.KernelIdeal.Layers.vg2 m c) (Cert.KernelIdeal.Layers.vbe2 m c)
    r0 r2 (hvec _ r3) (hvec _ r6) (hvec _ r7) r4 (hvec _ r5)).symm

/-- The certificate. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
